-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64x64 : Shape := ⟨2, ![64, 64]⟩
abbrev S64x1 : Shape := ⟨2, ![64, 1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn {F : FTy → Type} [FloatOps F] (main_arg0 : FVec F S64x256x56x56 .f32) (main_arg1 : FVec F S64x64 .f32) (main_arg2 : FVec F S64x1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  main_v13
-- ==== Kernel.lean ====
abbrev S64x256x56x56 : Shape := ⟨4, ![64, 256, 56, 56]⟩
abbrev S64x64 : Shape := ⟨2, ![64, 64]⟩
abbrev S64x1 : Shape := ⟨2, ![64, 1]⟩
abbrev S64x4x64x56x56 : Shape := ⟨5, ![64, 4, 64, 56, 56]⟩
abbrev S64x64x4x56x56 : Shape := ⟨5, ![64, 64, 4, 56, 56]⟩
abbrev S64x802816 : Shape := ⟨2, ![64, 802816]⟩
abbrev S64x8192 : Shape := ⟨2, ![64, 8192]⟩
abbrev S64 : Shape := ⟨1, ![64]⟩
abbrev S_ : Shape := ⟨0, ![]⟩
abbrev S1x64 : Shape := ⟨2, ![1, 64]⟩

abbrev nBuf : Space → Nat
  | .hbm => 149
  | .vmem => 11
  | .smem => 0
  | _ => 0

abbrev hbmTy0_0 (i : Nat) : BufTy := match i % 128 with
  | 0 => ⟨S64x256x56x56, .f32⟩
  | 1 => ⟨S64x64, .f32⟩
  | 2 => ⟨S64x1, .f32⟩
  | 3 => ⟨S64x4x64x56x56, .f32⟩
  | 4 => ⟨S64x64x4x56x56, .f32⟩
  | 5 => ⟨S64x802816, .f32⟩
  | 6 => ⟨S64x1, .f32⟩
  | 7 => ⟨S64x64, .f32⟩
  | 8 => ⟨S_, .f32⟩
  | 9 => ⟨S64x1, .f32⟩
  | 10 => ⟨S64x1, .f32⟩
  | 11 => ⟨S_, .f32⟩
  | 12 => ⟨S64x64, .f32⟩
  | 13 => ⟨S64x64, .f32⟩
  | 14 => ⟨S1x64, .f32⟩
  | 15 => ⟨S64x64, .f32⟩
  | 16 => ⟨S64x64, .f32⟩
  | 17 => ⟨S64x64, .i32⟩
  | 18 => ⟨S64x64, .i32⟩
  | 19 => ⟨S_, .i32⟩
  | 20 => ⟨S64x64, .i32⟩
  | 21 => ⟨S64x64, .i32⟩
  | 22 => ⟨S64x64, .i1⟩
  | 23 => ⟨S64x64, .f32⟩
  | 24 => ⟨S_, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S_, .f32⟩
  | 31 => ⟨S_, .f32⟩
  | 32 => ⟨S64x64, .f32⟩
  | 33 => ⟨S64x64, .f32⟩
  | 34 => ⟨S64x64, .i32⟩
  | 35 => ⟨S64x64, .i32⟩
  | 36 => ⟨S_, .i32⟩
  | 37 => ⟨S64x64, .i32⟩
  | 38 => ⟨S64x64, .i32⟩
  | 39 => ⟨S64x64, .i1⟩
  | 40 => ⟨S64x64, .f32⟩
  | 41 => ⟨S_, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S64x64, .f32⟩
  | 80 => ⟨S64x64, .f32⟩
  | 81 => ⟨S_, .f32⟩
  | 82 => ⟨S64x64, .f32⟩
  | 83 => ⟨S64x64, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S64x64, .f32⟩
  | 90 => ⟨S64x64, .f32⟩
  | 91 => ⟨S_, .f32⟩
  | 92 => ⟨S64x64, .f32⟩
  | 93 => ⟨S64x64, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S64x64, .f32⟩
  | 100 => ⟨S64x64, .f32⟩
  | 101 => ⟨S_, .f32⟩
  | 102 => ⟨S64x64, .f32⟩
  | 103 => ⟨S64x64, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x64, .f32⟩
  | 110 => ⟨S64x64, .f32⟩
  | 111 => ⟨S_, .f32⟩
  | 112 => ⟨S64x64, .f32⟩
  | 113 => ⟨S64x64, .f32⟩
  | 114 => ⟨S64x64, .f32⟩
  | 115 => ⟨S64x64, .f32⟩
  | 116 => ⟨S_, .f32⟩
  | 117 => ⟨S64x64, .f32⟩
  | 118 => ⟨S64x64, .f32⟩
  | 119 => ⟨S64x64, .f32⟩
  | 120 => ⟨S64x64, .f32⟩
  | 121 => ⟨S_, .f32⟩
  | 122 => ⟨S64x64, .f32⟩
  | 123 => ⟨S64x64, .f32⟩
  | 124 => ⟨S64x64, .f32⟩
  | 125 => ⟨S64x64, .f32⟩
  | 126 => ⟨S_, .f32⟩
  | 127 => ⟨S64x64, .f32⟩
  | _ => ⟨S64x256x56x56, .f32⟩

abbrev hbmTy0_1 (i : Nat) : BufTy := match i % 128 with
  | 0 => ⟨S64x64, .f32⟩
  | 1 => ⟨S64x64, .f32⟩
  | 2 => ⟨S64x64, .f32⟩
  | 3 => ⟨S_, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S64x64, .f32⟩
  | 12 => ⟨S64x64, .f32⟩
  | 13 => ⟨S_, .f32⟩
  | 14 => ⟨S64x64, .f32⟩
  | 15 => ⟨S64x64, .f32⟩
  | 16 => ⟨S64x64, .f32⟩
  | 17 => ⟨S64x802816, .f32⟩
  | 18 => ⟨S64x64x4x56x56, .f32⟩
  | 19 => ⟨S64x4x64x56x56, .f32⟩
  | 20 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | .local _ .vmem, ⟨0, _⟩ => ⟨S64x8192, .f32⟩
  | .local _ .vmem, ⟨1, _⟩ => ⟨S64x8192, .f32⟩
  | .local _ .vmem, ⟨2, _⟩ => ⟨S64x1, .f32⟩
  | .local _ .vmem, ⟨3, _⟩ => ⟨S64x64, .f32⟩
  | .local _ .vmem, ⟨4, _⟩ => ⟨S64x8192, .f32⟩
  | .local _ .vmem, ⟨5, _⟩ => ⟨S64x8192, .f32⟩
  | .local _ .vmem, ⟨6, _⟩ => ⟨S64x64, .f32⟩
  | .local _ .vmem, ⟨7, _⟩ => ⟨S64x1, .f32⟩
  | .local _ .vmem, ⟨8, _⟩ => ⟨S64x1, .f32⟩
  | .local _ .vmem, ⟨9, _⟩ => ⟨S64x8192, .f32⟩
  | .local _ .vmem, ⟨10, _⟩ => ⟨S64x8192, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_18 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_19 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_21 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_22 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64x256x56x56_S64x4x64x56x56 : S64x256x56x56.ShapeCasts S64x4x64x56x56
  transposes_S64x4x64x56x56_S64x64x4x56x56_2_0_1_3_4 : S64x4x64x56x56.Transposes [2, 0, 1, 3, 4] S64x64x4x56x56
  shapeCasts_S64x64x4x56x56_S64x802816 : S64x64x4x56x56.ShapeCasts S64x802816
  inb_S64x1_S64x1_0_0 : ∀ a, (![0, 0] : Fin 2 → Nat) a + S64x1.size a ≤ S64x1.size a
  h_S64x1 : 0 < S64x1.numel
  inb_S64x64_S64x64_0_0 : ∀ a, (![0, 0] : Fin 2 → Nat) a + S64x64.size a ≤ S64x64.size a
  h_S64x64 : 0 < S64x64.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  shapeCasts_S64x1_S64x1 : S64x1.ShapeCasts S64x1
  reduces_S64x8192_S64 : S64x8192.Reduces [1] S64
  shapeCasts_S64_S64x1 : S64.ShapeCasts S64x1
  shapeCasts_S64x64_S64x64 : S64x64.ShapeCasts S64x64
  bcast_S_S64x1 : S_.BroadcastsInDim S64x1 (![] : Fin 0 → Fin S64x1.rank)
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  h_S_ : 0 < S_.numel
  broadcasts_S64x1_S64x8192 : S64x1.Broadcasts S64x8192
  shapeCasts_S64x802816_S64x64x4x56x56 : S64x802816.ShapeCasts S64x64x4x56x56
  transposes_S64x64x4x56x56_S64x4x64x56x56_1_2_0_3_4 : S64x64x4x56x56.Transposes [1, 2, 0, 3, 4] S64x4x64x56x56
  shapeCasts_S64x4x64x56x56_S64x256x56x56 : S64x4x64x56x56.ShapeCasts S64x256x56x56
  dot_S64x8192_S64x8192_S64x64_1_1_0_0_n_n_wf : DotDims.WF S64x8192 S64x8192 S64x64 [1] [1] [0] [0] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x802816.size a
  hwx0_0 : ∀ i : grid0.Coords, EltTy.bits .f32 = 32 ∨ (Rect.block (s := S64x802816) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x802816.size a
  hwx1_0 : ∀ i : grid1.Coords, EltTy.bits .f32 = 32 ∨ (Rect.block (s := S64x802816) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x8192.size a ≤ S64x802816.size a
  hwx1_4 : ∀ i : grid1.Coords, EltTy.bits .f32 = 32 ∨ (Rect.block (s := S64x802816) S64x8192.size (cc1_transform_4 i) (hinb1_4 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v2) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S64x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v112) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v113) S64x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S64x64 : Shape := ⟨2, ![64, 64]⟩
abbrev S64x1 : Shape := ⟨2, ![64, 1]⟩
abbrev S64x4x64x56x56 : Shape := ⟨5, ![64, 4, 64, 56, 56]⟩
abbrev S64x64x4x56x56 : Shape := ⟨5, ![64, 64, 4, 56, 56]⟩
abbrev S64x802816 : Shape := ⟨2, ![64, 802816]⟩
abbrev S_ : Shape := ⟨0, ![]⟩
abbrev S64 : Shape := ⟨1, ![64]⟩
abbrev S802816x64 : Shape := ⟨2, ![802816, 64]⟩

abbrev nBuf : Space → Nat
  | .hbm => 153
  | .vmem => 0
  | .smem => 0
  | _ => 0

abbrev hbmTy0_0 (i : Nat) : BufTy := match i % 128 with
  | 0 => ⟨S64x256x56x56, .f32⟩
  | 1 => ⟨S64x64, .f32⟩
  | 2 => ⟨S64x1, .f32⟩
  | 3 => ⟨S64x4x64x56x56, .f32⟩
  | 4 => ⟨S64x64x4x56x56, .f32⟩
  | 5 => ⟨S64x802816, .f32⟩
  | 6 => ⟨S_, .f32⟩
  | 7 => ⟨S64, .f32⟩
  | 8 => ⟨S64x1, .f32⟩
  | 9 => ⟨S_, .f32⟩
  | 10 => ⟨S64x1, .f32⟩
  | 11 => ⟨S64x1, .f32⟩
  | 12 => ⟨S64x802816, .f32⟩
  | 13 => ⟨S64x802816, .f32⟩
  | 14 => ⟨S802816x64, .f32⟩
  | 15 => ⟨S64x64, .f32⟩
  | 16 => ⟨S_, .f32⟩
  | 17 => ⟨S64x64, .f32⟩
  | 18 => ⟨S64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S_, .f32⟩
  | 33 => ⟨S_, .f32⟩
  | 34 => ⟨S64x64, .f32⟩
  | 35 => ⟨S64x64, .f32⟩
  | 36 => ⟨S64x64, .i32⟩
  | 37 => ⟨S64x64, .i32⟩
  | 38 => ⟨S_, .i32⟩
  | 39 => ⟨S64x64, .i32⟩
  | 40 => ⟨S64x64, .i32⟩
  | 41 => ⟨S64x64, .i1⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S64x256x56x56, .f32⟩

abbrev hbmTy0_1 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x802816, .f32⟩
  | 20 => ⟨S64x802816, .f32⟩
  | 21 => ⟨S64x802816, .f32⟩
  | 22 => ⟨S64x64x4x56x56, .f32⟩
  | 23 => ⟨S64x4x64x56x56, .f32⟩
  | 24 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_20 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_23 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩

abbrev nD : Nat := 1
abbrev τ : Topo := Topo.v7x

variable {F : FTy → Type} [FloatOps F]

class Facts₀ : Prop where
  shapeCasts_S64x256x56x56_S64x4x64x56x56 : S64x256x56x56.ShapeCasts S64x4x64x56x56
  transposes_S64x4x64x56x56_S64x64x4x56x56_2_0_1_3_4 : S64x4x64x56x56.Transposes [2, 0, 1, 3, 4] S64x64x4x56x56
  shapeCasts_S64x64x4x56x56_S64x802816 : S64x64x4x56x56.ShapeCasts S64x802816
  reducesTo_S64x802816_S64_d1 : S64x802816.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x802816_0_1 : S64x1.BroadcastsInDim S64x802816 (![0, 1] : Fin 2 → Fin S64x802816.rank)
  transposes_S64x802816_S802816x64_1_0 : S64x802816.Transposes [1, 0] S802816x64
  bcast_S_S64x64 : S_.BroadcastsInDim S64x64 (![] : Fin 0 → Fin S64x64.rank)
  reducesTo_S64x64_S_d0_1 : S64x64.ReducesTo [0, 1] S_
  shapeCasts_S64x802816_S64x64x4x56x56 : S64x802816.ShapeCasts S64x64x4x56x56
  transposes_S64x64x4x56x56_S64x4x64x56x56_1_2_0_3_4 : S64x64x4x56x56.Transposes [1, 2, 0, 3, 4] S64x4x64x56x56
  shapeCasts_S64x4x64x56x56_S64x256x56x56 : S64x4x64x56x56.ShapeCasts S64x256x56x56
  dot_S64x802816_S802816x64_S64x64_1_0_0_1_n_n_wf : DotDims.WF S64x802816 S802816x64 S64x64 [1] [0] [0] [1] [] []
  dot_S64x64_S64x64_S64x64_1_0_0_1_n_n_wf : DotDims.WF S64x64 S64x64 S64x64 [1] [0] [0] [1] [] []
  dot_S64x64_S64x802816_S64x802816_1_0_0_1_n_n_wf : DotDims.WF S64x64 S64x802816 S64x802816 [1] [0] [0] [1] [] []

variable [Facts₀]

def dot_S64x802816_S802816x64_S64x64_1_0_0_1_n_n : DotDims S64x802816 S802816x64 S64x64 where
  lhsContracting := [1]
  rhsContracting := [0]
  lhsNonContracting := [0]
  rhsNonContracting := [1]
  lhsBatch := []
  rhsBatch := []
  wf := dot_S64x802816_S802816x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x802816_S64x802816_1_0_0_1_n_n : DotDims S64x64 S64x802816 S64x802816 where
  lhsContracting := [1]
  rhsContracting := [0]
  lhsNonContracting := [0]
  rhsNonContracting := [1]
  lhsBatch := []
  rhsBatch := []
  wf := dot_S64x64_S64x802816_S64x802816_1_0_0_1_n_n_wf

class Facts : Prop extends Facts₀ where

variable [Facts]
-- ==== Proof.Names.lean ====
/- Shorthand for the two programs' buffer valuations and for the array shapes they share. -/
import proofs.«139421_j37855841747396_1_alg».proof.Proof.Gen.KernelIdeal.Frame
import proofs.«139421_j37855841747396_1_alg».proof.Proof.RefOps
import Idealize.ShloMosaic.Lib.ValueIdx
import Idealize.ShloMosaic.PureOps.Ideal

noncomputable section

namespace Cert.Bridge

open Idealize.ShloMosaic Idealize.ShloMosaic.StableHlo Idealize.ShloMosaic.ValueIdx

/-- A valuation of the kernel program's buffers. -/
abbrev KV (F : FTy → Type) [FloatOps F] : Type := Valuation Cert.KernelIdeal.τ Cert.KernelIdeal.sig (Elt F)
/-- A valuation of the reference program's buffers. -/
abbrev RV (F : FTy → Type) [FloatOps F] : Type := Valuation Cert.ReferenceIdeal.τ Cert.ReferenceIdeal.sig (Elt F)

/-- 64 feature rows of 802816 samples. -/
abbrev TX : Shape := ⟨2, ![64, 802816]⟩
/-- A 64 × 64 matrix. -/
abbrev TG : Shape := ⟨2, ![64, 64]⟩
/-- A column of 64 entries. -/
abbrev TC : Shape := ⟨2, ![64, 1]⟩

/-- A buffer's contents of shape `S`, read at an index as an extended real (this fixes the entry type, so that sums and
    products of entries are the extended reals' own). -/
abbrev ex (S : Shape) (x : S.Idx → EReal) (i : S.Idx) : EReal := x i

/-- The sample count 802816, as both programs spell it. -/
abbrev Mc : EReal := Ideal.ofBits .f32 0x49440000#32

end Cert.Bridge

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Finite.lean ====
/- Under the precondition every entry of the input is a real number, and the re-laid input only moves entries, so every entry of the 64 × 802816 array the first launch reads is a real number. -/
import proofs.«139421_j37855841747396_1_alg».proof.Proof.Names
import proofs.«139421_j37855841747396_1_alg».proof.Proof.LibERealBatchNorm
import proofs.«139421_j37855841747396_1_alg».proof.Proof.Gen.Pre_finite_inputs
import proofs.«139421_j37855841747396_1_alg».proof.Defs
import Idealize.ShloMosaic.Lib.ReduceAll
import Idealize.ShloMosaic.Lib.Pipeline.Value

noncomputable section

namespace Cert.Bridge

open Idealize.ShloMosaic Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

namespace Finite

/-- An extended real whose absolute value is below `+∞` (the float pattern `0x7F800000`) is a real number. -/
theorem isReal_of_abs_lt (x : EReal)
    (h : Ideal.cmp .olt (max x (-x)) (Ideal.ofBits .f32 0x7F800000#32) = 1#1) : Cert.ERealBN.IsReal x := by
  induction x using EReal.rec with
  | bot => simp [Ideal.ofBits, Ideal.ieee, Ideal.cmp] at h
  | top => simp [Ideal.ofBits, Ideal.ieee, Ideal.cmp] at h
  | coe r => exact ⟨r, rfl⟩

/-- Under the precondition every entry of the first argument is a real number: the predicate is the conjunction of three
    `all (|x| < +∞)`, one per argument, and the first conjunct read at an index is the entry's finiteness. -/
theorem arg0_real [hPre_finite_inputs : Cert.Pre_finite_inputs.Facts] [hKernelIdeal : Cert.KernelIdeal.Facts] (hpre : Cert.Pre_KernelIdeal m) (c : Dev Cert.KernelIdeal.nD) (j : Cert.Pre_finite_inputs.S64x256x56x56.Idx) :
    Cert.ERealBN.IsReal (m ((c.tc : Thread Cert.KernelIdeal.nD Cert.KernelIdeal.τ).loc Cert.KernelIdeal.main_arg0) j) := by
  have h := congrFun (hpre c) ValueIdx.ix0
  dsimp only [Cert.Pre_finite_inputs.fn] at h
  have h1 := (IntOp.andi_eq_one.1 (IntOp.andi_eq_one.1 h).1).1
  -- the predicate's scalar result has one index, so the reduction is over every entry
  haveI : Subsingleton Cert.Pre_finite_inputs.S_.Idx := ⟨fun a b => funext fun d => d.elim0⟩
  have h2 := Host.reduce_andi_all _ _ _ _ _ h1 j
  exact isReal_of_abs_lt _ h2

/-- The re-laid input only moves entries: a reshape, a transpose and a reshape each read the operand at another index,
    so every entry of the 64 × 802816 array is an entry of the first argument. -/
theorem x1_moves [hKernelIdeal : Cert.KernelIdeal.Facts] (c : Dev Cert.KernelIdeal.nD) (i : TX.Idx) :
    ∃ j, ex TX (Cert.KernelIdeal.Gen.W1 m ρ c (Proc.devRef .tc Cert.KernelIdeal.main_v2)) i
      = m ((c.tc : Thread Cert.KernelIdeal.nD Cert.KernelIdeal.τ).loc Cert.KernelIdeal.main_arg0) j := by
  dsimp only [Cert.KernelIdeal.Gen.W1, Cert.KernelIdeal.Gen.hostOps0]
  after_results
  exact ⟨_, rfl⟩

end Finite

/-- Under the precondition every entry of the 64 × 802816 array the first launch reads is a real number. -/
theorem x1_real [hPre_finite_inputs : Cert.Pre_finite_inputs.Facts] [hKernelIdeal : Cert.KernelIdeal.Facts] (hpre : Cert.Pre_KernelIdeal m) (c : Dev Cert.KernelIdeal.nD) (i : TX.Idx) :
    Cert.ERealBN.IsReal (ex TX (Cert.KernelIdeal.Gen.W1 m ρ c (Proc.devRef .tc Cert.KernelIdeal.main_v2)) i) := by
  obtain ⟨j, hj⟩ := Finite.x1_moves m ρ c i
  rw [hj]
  exact Finite.arg0_real m hpre c j

end Cert.Bridge

end
-- ==== Proof.Layout.lean ====
/- The two programs re-lay the input, and re-lay the result back, by the same three operations: from equal contents they leave equal contents. -/
import proofs.«139421_j37855841747396_1_alg».proof.Proof.Names

noncomputable section

namespace Cert.Bridge

open Idealize.ShloMosaic Idealize.ShloMosaic.StableHlo Idealize.ShloMosaic.ValueIdx

variable {F : FTy → Type} [FloatOps F]

/-- The input re-laid as 64 rows of 802816 samples: the same reshape, transpose, reshape in both programs. -/
theorem pre_agree (V : KV F) (V' : RV F)
    (h : V (Proc.devRef .tc Cert.KernelIdeal.main_arg0) = V' (Proc.devRef .tc Cert.ReferenceIdeal.main_arg0)) :
    after Cert.KernelIdeal.Gen.hostOps0 V (Proc.devRef .tc Cert.KernelIdeal.main_v2) = after Cert.ReferenceIdeal.RefOps.r0 V' (Proc.devRef .tc Cert.ReferenceIdeal.main_v2) := by
  after_results
  rw [h]
  rfl

/-- The result re-laid to the input's layout: the same reshape, transpose, reshape in both programs. -/
theorem post_agree (V : KV F) (V' : RV F)
    (h : V (Proc.devRef .tc Cert.KernelIdeal.main_v113) = V' (Proc.devRef .tc Cert.ReferenceIdeal.main_v117)) :
    after Cert.KernelIdeal.Gen.hostOps2 V (Proc.devRef .tc Cert.KernelIdeal.main_v116) = after Cert.ReferenceIdeal.RefOps.r5 V' (Proc.devRef .tc Cert.ReferenceIdeal.main_v120) := by
  after_results
  rw [h]
  rfl

end Cert.Bridge

end
-- ==== Proof.Norm.lean ====
/- The Frobenius norm of the covariance: the same four operations in both programs. -/
import proofs.«139421_j37855841747396_1_alg».proof.Proof.Names

noncomputable section

namespace Cert.Bridge

open Idealize.ShloMosaic Idealize.ShloMosaic.StableHlo Idealize.ShloMosaic.ValueIdx

variable {F : FTy → Type} [FloatOps F]

theorem norm_agree (V : KV F) (V' : RV F)
    (h : V (Proc.devRef .tc Cert.KernelIdeal.main_v19) = V' (Proc.devRef .tc Cert.ReferenceIdeal.main_v21)) :
    after Cert.KernelIdeal.Gen.hostOps1_1 V (Proc.devRef .tc Cert.KernelIdeal.main_v20) = after Cert.ReferenceIdeal.RefOps.r2 V' (Proc.devRef .tc Cert.ReferenceIdeal.main_v22) := by
  after_results
  rw [h]

end Cert.Bridge

end
-- ==== Proof.NS.lean ====
/- The Newton–Schulz inverse square root of the covariance and its product with the weight: the same 113 operations in both programs, so from equal covariance, norm and weight they leave equal matrices. The recurrence is never opened. -/
import proofs.«139421_j37855841747396_1_alg».proof.Proof.Names

noncomputable section

namespace Cert.Bridge

open Idealize.ShloMosaic Idealize.ShloMosaic.StableHlo Idealize.ShloMosaic.ValueIdx

variable {F : FTy → Type} [FloatOps F]

set_option maxRecDepth 8192 in
set_option maxHeartbeats 4000000 in
theorem ns_agree (V : KV F) (V' : RV F)
    (h19 : V (Proc.devRef .tc Cert.KernelIdeal.main_v19) = V' (Proc.devRef .tc Cert.ReferenceIdeal.main_v21))
    (h20 : V (Proc.devRef .tc Cert.KernelIdeal.main_v20) = V' (Proc.devRef .tc Cert.ReferenceIdeal.main_v22))
    (h1 : V (Proc.devRef .tc Cert.KernelIdeal.main_arg1) = V' (Proc.devRef .tc Cert.ReferenceIdeal.main_arg1)) :
    after Cert.KernelIdeal.Gen.hostOps1_2 V (Proc.devRef .tc Cert.KernelIdeal.main_v112) = after Cert.ReferenceIdeal.RefOps.r3 V' (Proc.devRef .tc Cert.ReferenceIdeal.main_v114) := by
  after_results_simp
  simp only [h19, h20, h1]
  rfl

end Cert.Bridge

end
-- ==== Proof.Eps.lean ====
/- The regularising multiple of the identity matrix is built from constants alone, by the same operations in both programs. -/
import proofs.«139421_j37855841747396_1_alg».proof.Proof.Names

noncomputable section

namespace Cert.Bridge

open Idealize.ShloMosaic Idealize.ShloMosaic.StableHlo Idealize.ShloMosaic.ValueIdx

theorem eps_agree {F : FTy → Type} [FloatOps F] (V : KV F) (V' : RV F) :
    after Cert.KernelIdeal.Gen.hostOps1 V (Proc.devRef .tc Cert.KernelIdeal.main_v18) = after Cert.ReferenceIdeal.RefOps.r1 V' (Proc.devRef .tc Cert.ReferenceIdeal.main_v20) := by
  after_results

end Cert.Bridge

end
-- ==== Proof.StatsK.lean ====
/- The kernel program's host operations between its two launches, read at an index over the extended reals: the mean is the row sum over the sample count, and the covariance is the Gram sum over the sample count minus the product of two means, plus the regularising multiple of the identity. -/
import proofs.«139421_j37855841747396_1_alg».proof.Proof.Names
import Idealize.ShloMosaic.PureOps.Ideal.Laws
import Idealize.ShloMosaic.Lib.Pipeline.Value

noncomputable section

namespace Cert.Bridge

open Idealize.ShloMosaic Idealize.ShloMosaic.StableHlo Idealize.ShloMosaic.ValueIdx

section Outer

open Cert.KernelIdeal

/-- The left operand's row axis is the result's row axis. -/
theorem covK_lhs_0 (i : S64x64.Idx) (q : dot_S64x1_S1x64_S64x64_1_0_0_1_n_n.contr.Idx) :
    (dot_S64x1_S1x64_S64x64_1_0_0_1_n_n.lhsIdx i q 0).val = (i 0).val := by
  unfold DotDims.lhsIdx
  rw [dif_neg (show ¬(0 : Fin S64x1.rank) ∈ dot_S64x1_S1x64_S64x64_1_0_0_1_n_n.lhsBatch by decide), dif_pos (show (0 : Fin S64x1.rank) ∈ dot_S64x1_S1x64_S64x64_1_0_0_1_n_n.lhsNonContracting by decide)]
  rfl
/-- The left operand's column axis is the contracted one. -/
theorem covK_lhs_1 (i : S64x64.Idx) (q : dot_S64x1_S1x64_S64x64_1_0_0_1_n_n.contr.Idx) :
    (dot_S64x1_S1x64_S64x64_1_0_0_1_n_n.lhsIdx i q 1).val = (q ⟨0, by decide⟩).val :=
  dot_S64x1_S1x64_S64x64_1_0_0_1_n_n.lhsIdx_val_of_single rfl i q
/-- The right operand's row axis is the contracted one. -/
theorem covK_rhs_0 (i : S64x64.Idx) (q : dot_S64x1_S1x64_S64x64_1_0_0_1_n_n.contr.Idx) :
    (dot_S64x1_S1x64_S64x64_1_0_0_1_n_n.rhsIdx i q 0).val = (q ⟨0, by decide⟩).val :=
  dot_S64x1_S1x64_S64x64_1_0_0_1_n_n.rhsIdx_val_of_single rfl i q
/-- The right operand's column axis is the result's column axis. -/
theorem covK_rhs_1 (i : S64x64.Idx) (q : dot_S64x1_S1x64_S64x64_1_0_0_1_n_n.contr.Idx) :
    (dot_S64x1_S1x64_S64x64_1_0_0_1_n_n.rhsIdx i q 1).val = (i 1).val := by
  unfold DotDims.rhsIdx
  rw [dif_neg (show ¬(1 : Fin S1x64.rank) ∈ dot_S64x1_S1x64_S64x64_1_0_0_1_n_n.rhsBatch by decide), dif_pos (show (1 : Fin S1x64.rank) ∈ dot_S64x1_S1x64_S64x64_1_0_0_1_n_n.rhsNonContracting by decide)]
  rfl

/-- A column times a row over the extended reals: the contraction has one index, so entry (g, h) is the column's
    entry (g, 0) times the row's entry (0, h). -/
theorem covK_outer (y0 : FVec Ideal S64x1 .f32) (y1 : FVec Ideal S1x64 .f32) (i : S64x64.Idx) :
    Host.dotGeneral (F := Ideal) (φ₁ := .f32) (φ₂ := .f32) dot_S64x1_S1x64_S64x64_1_0_0_1_n_n none y0 y1 i
      = ex TC y0 (ix2 (i 0) 0) * y1 (ix2 0 (i 1)) := by
  simp only [Host.dotGeneral]
  rw [Ideal.dotGeneral_apply, ← Equiv.sum_comp (ValueIdx.contrEquiv1 dot_S64x1_S1x64_S64x64_1_0_0_1_n_n 1 rfl rfl).symm,
    Fin.sum_univ_one]
  have hk := ValueIdx.contrEquiv1_symm_val dot_S64x1_S1x64_S64x64_1_0_0_1_n_n 1 rfl rfl 0
  have el : dot_S64x1_S1x64_S64x64_1_0_0_1_n_n.lhsIdx i ((ValueIdx.contrEquiv1 dot_S64x1_S1x64_S64x64_1_0_0_1_n_n 1 rfl rfl).symm 0) = ix2 (i 0) 0 := funext fun a => Fin.ext (by
    match a with
    | ⟨0, _⟩ => exact covK_lhs_0 _ _
    | ⟨1, _⟩ => exact (covK_lhs_1 _ _).trans hk)
  have er : dot_S64x1_S1x64_S64x64_1_0_0_1_n_n.rhsIdx i ((ValueIdx.contrEquiv1 dot_S64x1_S1x64_S64x64_1_0_0_1_n_n 1 rfl rfl).symm 0) = ix2 0 (i 1) := funext fun a => Fin.ext (by
    match a with
    | ⟨0, _⟩ => exact (covK_rhs_0 _ _).trans hk
    | ⟨1, _⟩ => exact covK_rhs_1 _ _)
  rw [el, er]
  rfl

/-- A column transposed to a row: the row's entry (0, h) is the column's entry (h, 0). -/
theorem covK_row (y : FVec Ideal S64x1 .f32) (j : Fin 64) :
    transpose S1x64 [1, 0] y Gen.transposes_S64x1_S1x64_1_0 (ix2 0 j) = ex TC y (ix2 j 0) :=
  transpose_apply [1, 0] y Gen.transposes_S64x1_S1x64_1_0 (ix2 0 j) (ix2 j 0) (fun b => match b with
    | ⟨0, _⟩ => rfl
    | ⟨1, _⟩ => rfl)

end Outer

/-- The mean column: the first launch's row sums divided by the sample count. -/
theorem meanK (V : KV Ideal) (i : TC.Idx) :
    ex TC (after Cert.KernelIdeal.Gen.hostOps1 V (Proc.devRef .tc Cert.KernelIdeal.main_v5)) i
      = Ideal.div (ex TC (V (Proc.devRef .tc Cert.KernelIdeal.main_v3_0)) i) Mc := by
  after_results
  rfl

/-- The covariance as the kernel program spells it: the Gram sums over the sample count, minus the outer product of the
    mean column with itself, plus the regularising term (left as the program's own buffer `main_v18`). -/
theorem covK (V : KV Ideal) (i : TG.Idx) :
    ex TG (after Cert.KernelIdeal.Gen.hostOps1 V (Proc.devRef .tc Cert.KernelIdeal.main_v19)) i
      = Ideal.div (ex TG (V (Proc.devRef .tc Cert.KernelIdeal.main_v3_1)) i) Mc
          - Ideal.div (ex TC (V (Proc.devRef .tc Cert.KernelIdeal.main_v3_0)) (ix2 (i 0) 0)) Mc
            * Ideal.div (ex TC (V (Proc.devRef .tc Cert.KernelIdeal.main_v3_0)) (ix2 (i 1) 0)) Mc
          + ex TG (after Cert.KernelIdeal.Gen.hostOps1 V (Proc.devRef .tc Cert.KernelIdeal.main_v18)) i := by
  after_results
  refine (addf_apply _ _ i).trans ?_
  refine congrArg₂ (· + ·) ?_ rfl
  refine (subf_apply _ _ i).trans ?_
  refine congrArg₂ (· - ·) rfl ?_
  rw [covK_outer]
  refine congrArg₂ (· * ·) rfl ?_
  exact covK_row _ (i 1)

end Cert.Bridge

end
-- ==== Proof.StatsR.lean ====
/- The reference program's mean, centred rows and covariance, read at an index over the extended reals. -/
import proofs.«139421_j37855841747396_1_alg».proof.Proof.Names
import Idealize.ShloMosaic.PureOps.Ideal.Laws
import Idealize.ShloMosaic.Lib.Pipeline.Value

noncomputable section

namespace Cert.Bridge

open Idealize.ShloMosaic Idealize.ShloMosaic.StableHlo Idealize.ShloMosaic.ValueIdx

section Ops
open Cert.ReferenceIdeal Cert.ReferenceIdeal.Gen Idealize.ShloMosaic.TcCoe

/-! ## The three buffers as operations on the stretch's inputs

Each fold is evaluated only as far as the statement it serves reads it: the mean down to the re-laid input, the centred
rows down to the mean, the covariance down to the centred rows and the regularising term. -/

set_option maxHeartbeats 1000000 in
/-- The mean column is the row sums, broadcast to a column, over the broadcast sample count. -/
theorem r1_mean (V' : RV Ideal) :
    after Cert.ReferenceIdeal.RefOps.r1 V' (Proc.devRef .tc main_v6)
      = Host.divf (F := Ideal)
          (broadcastInDim S64x1 ![0] bcast_S64_S64x1_0
            (Host.reduceAdd (F := Ideal) (V' (Proc.devRef .tc main_v2)) (constant (F := Ideal) S_ .f32 0x00000000#32) reducesTo_S64x802816_S64_d1 h_S_))
          (broadcastInDim S64x1 ![] bcast_S_S64x1 (constant (F := Ideal) S_ .f32 0x49440000#32)) := by
  dsimp only [Cert.ReferenceIdeal.RefOps.r1]
  after_results

set_option maxHeartbeats 1000000 in
/-- The centred rows are the input minus the mean column broadcast along the rows. -/
theorem r1_centred (V' : RV Ideal) :
    after Cert.ReferenceIdeal.RefOps.r1 V' (Proc.devRef .tc main_v8)
      = subf (F := Ideal) (φ := .f32) (V' (Proc.devRef .tc main_v2) : FVec Ideal S64x802816 .f32)
          (broadcastInDim S64x802816 ![0, 1] bcast_S64x1_S64x802816_0_1
            (after Cert.ReferenceIdeal.RefOps.r1 V' (Proc.devRef .tc main_v6) : FVec Ideal S64x1 .f32)) := by
  dsimp only [Cert.ReferenceIdeal.RefOps.r1]
  after_results

set_option maxHeartbeats 1000000 in
/-- The covariance is the centred rows times their transpose, over the broadcast sample count, plus the regularising term. -/
theorem r1_cov (V' : RV Ideal) :
    after Cert.ReferenceIdeal.RefOps.r1 V' (Proc.devRef .tc main_v21)
      = addf (F := Ideal)
          (Host.divf (F := Ideal)
            (Host.dotGeneral (F := Ideal) (φ₁ := .f32) (φ₂ := .f32) dot_S64x802816_S802816x64_S64x64_1_0_0_1_n_n none
              (after Cert.ReferenceIdeal.RefOps.r1 V' (Proc.devRef .tc main_v8) : FVec Ideal S64x802816 .f32)
              (transpose S802816x64 [1, 0] (after Cert.ReferenceIdeal.RefOps.r1 V' (Proc.devRef .tc main_v8) : FVec Ideal S64x802816 .f32) transposes_S64x802816_S802816x64_1_0))
            (broadcastInDim S64x64 ![] bcast_S_S64x64 (constant (F := Ideal) S_ .f32 0x49440000#32)))
          (after Cert.ReferenceIdeal.RefOps.r1 V' (Proc.devRef .tc main_v20) : FVec Ideal S64x64 .f32) := by
  dsimp only [Cert.ReferenceIdeal.RefOps.r1]
  after_results

/-! ## The layout operations and the two sums, read at an index -/

/-- The row a column entry is broadcast from. -/
abbrev rowOf (i : S64x1.Idx) : S64.Idx := fun a => match a with
  | ⟨0, _⟩ => ⟨(i 0).val, (i 0).isLt⟩

/-- A row vector broadcast to a column, at an entry: the vector at that row. -/
theorem colOfRow_apply (y : S64.Idx → EReal) (i : S64x1.Idx) :
    broadcastInDim S64x1 ![0] bcast_S64_S64x1_0 y i = y (rowOf i) :=
  broadcastInDim_apply _ bcast_S64_S64x1_0 y i (rowOf i) (fun a => match a with
    | ⟨0, _⟩ => by show (i 0).val = if (64 : Nat) = 1 then 0 else (i 0).val; rw [if_neg (by decide)])

/-- A scalar broadcast to a column, at an entry: the scalar. -/
theorem colOfScalar_apply (y : S_.Idx → EReal) (i : S64x1.Idx) :
    broadcastInDim S64x1 ![] bcast_S_S64x1 y i = y (fun a => a.elim0) :=
  broadcastInDim_apply _ bcast_S_S64x1 y i (fun a => a.elim0) (fun a => a.elim0)

/-- A scalar broadcast to a square matrix, at an entry: the scalar. -/
theorem sqOfScalar_apply (y : S_.Idx → EReal) (i : S64x64.Idx) :
    broadcastInDim S64x64 ![] bcast_S_S64x64 y i = y (fun a => a.elim0) :=
  broadcastInDim_apply _ bcast_S_S64x64 y i (fun a => a.elim0) (fun a => a.elim0)

/-- A column broadcast along the rows, at an entry: the column at that entry's row. -/
theorem rowsOfCol_apply (y : S64x1.Idx → EReal) (i : S64x802816.Idx) :
    broadcastInDim S64x802816 ![0, 1] bcast_S64x1_S64x802816_0_1 y i = y (ix2 (i 0) 0) :=
  broadcastInDim_apply _ bcast_S64x1_S64x802816_0_1 y i (ix2 (i 0) 0) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

/-- The transpose of a 64 × 802816 array, at an entry: the array at the swapped entry. -/
theorem transposeX_apply (y : S64x802816.Idx → EReal) (k : Fin 802816) (c : Fin 64) :
    transpose S802816x64 [1, 0] y transposes_S64x802816_S802816x64_1_0 (ix2 k c) = y (ix2 c k) :=
  transpose_apply [1, 0] y transposes_S64x802816_S802816x64_1_0 (ix2 k c) (ix2 c k) (fun b => match b with
    | ⟨0, _⟩ => rfl
    | ⟨1, _⟩ => rfl)

/-- The host's float sum along the rows, at a row: the initial value plus the sum of the row's entries. -/
theorem rowSum_apply (x : FVec Ideal S64x802816 .f32) (c : S_.Idx → Ideal .f32) (j : S64.Idx) :
    Host.reduceAdd (F := Ideal) x c reducesTo_S64x802816_S64_d1 h_S_ j
      = c (Shape.Idx.first h_S_) + ∑ k : Fin 802816, x (ix2 (j 0) k) := by
  simp only [Host.reduceAdd, Ideal.hostReduceAdd_def]
  rw [Ideal.hostReduceAdd_single reducesTo_S64x802816_S64_d1 (by decide)]
  refine congrArg (_ + ·) (Finset.sum_congr rfl fun k _ => ?_)
  exact congrArg x (funext fun a => Fin.ext (by match a with | ⟨0, _⟩ => rfl | ⟨1, _⟩ => rfl))

/-! The contraction's operand indices, one axis at a time. -/

theorem lhs_gram_0 (i : S64x64.Idx) (q : dot_S64x802816_S802816x64_S64x64_1_0_0_1_n_n.contr.Idx) :
    (dot_S64x802816_S802816x64_S64x64_1_0_0_1_n_n.lhsIdx i q 0).val = (i 0).val := by
  unfold DotDims.lhsIdx
  rw [dif_neg (show ¬(0 : Fin S64x802816.rank) ∈ dot_S64x802816_S802816x64_S64x64_1_0_0_1_n_n.lhsBatch by decide), dif_pos (show (0 : Fin S64x802816.rank) ∈ dot_S64x802816_S802816x64_S64x64_1_0_0_1_n_n.lhsNonContracting by decide)]
  rfl
theorem lhs_gram_1 (i : S64x64.Idx) (q : dot_S64x802816_S802816x64_S64x64_1_0_0_1_n_n.contr.Idx) :
    (dot_S64x802816_S802816x64_S64x64_1_0_0_1_n_n.lhsIdx i q 1).val = (q ⟨0, by decide⟩).val :=
  dot_S64x802816_S802816x64_S64x64_1_0_0_1_n_n.lhsIdx_val_of_single rfl i q
theorem rhs_gram_0 (i : S64x64.Idx) (q : dot_S64x802816_S802816x64_S64x64_1_0_0_1_n_n.contr.Idx) :
    (dot_S64x802816_S802816x64_S64x64_1_0_0_1_n_n.rhsIdx i q 0).val = (q ⟨0, by decide⟩).val :=
  dot_S64x802816_S802816x64_S64x64_1_0_0_1_n_n.rhsIdx_val_of_single rfl i q
theorem rhs_gram_1 (i : S64x64.Idx) (q : dot_S64x802816_S802816x64_S64x64_1_0_0_1_n_n.contr.Idx) :
    (dot_S64x802816_S802816x64_S64x64_1_0_0_1_n_n.rhsIdx i q 1).val = (i 1).val := by
  unfold DotDims.rhsIdx
  rw [dif_neg (show ¬(1 : Fin S802816x64.rank) ∈ dot_S64x802816_S802816x64_S64x64_1_0_0_1_n_n.rhsBatch by decide), dif_pos (show (1 : Fin S802816x64.rank) ∈ dot_S64x802816_S802816x64_S64x64_1_0_0_1_n_n.rhsNonContracting by decide)]
  rfl

/-- The host's contraction of a 64 × 802816 array with an 802816 × 64 one, at an entry: the sum over the contracted
    axis of the products. -/
theorem gram_apply (y0 : FVec Ideal S64x802816 .f32) (y1 : FVec Ideal S802816x64 .f32) (i : S64x64.Idx) :
    Host.dotGeneral (F := Ideal) dot_S64x802816_S802816x64_S64x64_1_0_0_1_n_n none y0 y1 i
      = ∑ k : Fin 802816, y0 (ix2 (i 0) k) * y1 (ix2 k (i 1)) := by
  simp only [Host.dotGeneral]
  rw [Ideal.dotGeneral_apply, ← Equiv.sum_comp (ValueIdx.contrEquiv1 dot_S64x802816_S802816x64_S64x64_1_0_0_1_n_n 802816 rfl rfl).symm]
  refine Finset.sum_congr rfl fun k _ => ?_
  have hk := ValueIdx.contrEquiv1_symm_val dot_S64x802816_S802816x64_S64x64_1_0_0_1_n_n 802816 rfl rfl k
  have el : dot_S64x802816_S802816x64_S64x64_1_0_0_1_n_n.lhsIdx i ((ValueIdx.contrEquiv1 dot_S64x802816_S802816x64_S64x64_1_0_0_1_n_n 802816 rfl rfl).symm k) = ix2 (i 0) k := funext fun a => Fin.ext (by
    match a with
    | ⟨0, _⟩ => exact lhs_gram_0 _ _
    | ⟨1, _⟩ => exact (lhs_gram_1 _ _).trans hk)
  have er : dot_S64x802816_S802816x64_S64x64_1_0_0_1_n_n.rhsIdx i ((ValueIdx.contrEquiv1 dot_S64x802816_S802816x64_S64x64_1_0_0_1_n_n 802816 rfl rfl).symm k) = ix2 k (i 1) := funext fun a => Fin.ext (by
    match a with
    | ⟨0, _⟩ => exact (rhs_gram_0 _ _).trans hk
    | ⟨1, _⟩ => exact rhs_gram_1 _ _)
  rw [el, er]
  rfl

/-! ## The three operation terms read at an index -/

/-- Row sums broadcast to a column over the broadcast count, at an entry. -/
theorem mean_read (x : FVec Ideal S64x802816 .f32) (i : S64x1.Idx) :
    Host.divf (F := Ideal)
        (broadcastInDim S64x1 ![0] bcast_S64_S64x1_0
          (Host.reduceAdd (F := Ideal) x (constant (F := Ideal) S_ .f32 0x00000000#32) reducesTo_S64x802816_S64_d1 h_S_))
        (broadcastInDim S64x1 ![] bcast_S_S64x1 (constant (F := Ideal) S_ .f32 0x49440000#32)) i
      = Ideal.div (Ideal.ofBits .f32 0x00000000#32 + ∑ j : Fin 802816, x (ix2 (i 0) j)) (Ideal.ofBits .f32 0x49440000#32) := by
  show Ideal.div (broadcastInDim (s := S64) S64x1 ![0] bcast_S64_S64x1_0 _ i) (broadcastInDim (s := S_) S64x1 ![] bcast_S_S64x1 _ i) = _
  rw [colOfRow_apply, colOfScalar_apply, rowSum_apply]
  rfl

/-- An array minus a column broadcast along its rows, at an entry. -/
theorem centred_read (x : FVec Ideal S64x802816 .f32) (m : FVec Ideal S64x1 .f32) (i : S64x802816.Idx) :
    subf (F := Ideal) x (broadcastInDim S64x802816 ![0, 1] bcast_S64x1_S64x802816_0_1 m) i = x i - m (ix2 (i 0) 0) := by
  show x i - broadcastInDim S64x802816 ![0, 1] bcast_S64x1_S64x802816_0_1 m i = _
  rw [rowsOfCol_apply]

/-- An array times its transpose over the broadcast count, plus a matrix, at an entry. -/
theorem cov_read (y : FVec Ideal S64x802816 .f32) (e : FVec Ideal S64x64 .f32) (i : S64x64.Idx) :
    addf (F := Ideal)
        (Host.divf (F := Ideal)
          (Host.dotGeneral (F := Ideal) (φ₁ := .f32) (φ₂ := .f32) dot_S64x802816_S802816x64_S64x64_1_0_0_1_n_n none y
            (transpose S802816x64 [1, 0] y transposes_S64x802816_S802816x64_1_0))
          (broadcastInDim S64x64 ![] bcast_S_S64x64 (constant (F := Ideal) S_ .f32 0x49440000#32))) e i
      = Ideal.div (∑ j : Fin 802816, y (ix2 (i 0) j) * y (ix2 (i 1) j)) (Ideal.ofBits .f32 0x49440000#32) + e i := by
  show Ideal.div (Host.dotGeneral (F := Ideal) (φ₁ := .f32) (φ₂ := .f32) dot_S64x802816_S802816x64_S64x64_1_0_0_1_n_n none y _ i)
        (broadcastInDim (s := S_) S64x64 ![] bcast_S_S64x64 _ i) + e i = _
  have hsum : (∑ k : Fin 802816, y (ix2 (i 0) k) * transpose S802816x64 [1, 0] y transposes_S64x802816_S802816x64_1_0 (ix2 k (i 1)))
      = ∑ j : Fin 802816, y (ix2 (i 0) j) * y (ix2 (i 1) j) :=
    Finset.sum_congr rfl fun k _ => congrArg (y (ix2 (i 0) k) * ·) (transposeX_apply y k (i 1))
  rw [gram_apply, sqOfScalar_apply, constant_apply, hsum]

end Ops

/-- The mean column: zero plus the row's sum, divided by the sample count. -/
theorem meanR (V' : RV Ideal) (i : TC.Idx) :
    ex TC (after Cert.ReferenceIdeal.RefOps.r1 V' (Proc.devRef .tc Cert.ReferenceIdeal.main_v6)) i
      = Ideal.div (Ideal.ofBits .f32 0x00000000#32 + ∑ j : Fin 802816, ex TX (V' (Proc.devRef .tc Cert.ReferenceIdeal.main_v2)) (ix2 (i 0) j)) Mc := by
  rw [r1_mean]
  exact mean_read _ i

/-- The centred rows: each entry minus its row's mean. -/
theorem centredR (V' : RV Ideal) (i : TX.Idx) :
    ex TX (after Cert.ReferenceIdeal.RefOps.r1 V' (Proc.devRef .tc Cert.ReferenceIdeal.main_v8)) i
      = ex TX (V' (Proc.devRef .tc Cert.ReferenceIdeal.main_v2)) i - ex TC (after Cert.ReferenceIdeal.RefOps.r1 V' (Proc.devRef .tc Cert.ReferenceIdeal.main_v6)) (ix2 (i 0) 0) := by
  rw [r1_centred]
  exact centred_read _ _ i

/-- The covariance as the reference spells it: the Gram sums of the centred rows over the sample count, plus the
    regularising term (left as the program's own buffer `main_v20`). -/
theorem covR (V' : RV Ideal) (i : TG.Idx) :
    ex TG (after Cert.ReferenceIdeal.RefOps.r1 V' (Proc.devRef .tc Cert.ReferenceIdeal.main_v21)) i
      = Ideal.div (∑ j : Fin 802816, ex TX (after Cert.ReferenceIdeal.RefOps.r1 V' (Proc.devRef .tc Cert.ReferenceIdeal.main_v8)) (ix2 (i 0) j)
            * ex TX (after Cert.ReferenceIdeal.RefOps.r1 V' (Proc.devRef .tc Cert.ReferenceIdeal.main_v8)) (ix2 (i 1) j)) Mc
          + ex TG (after Cert.ReferenceIdeal.RefOps.r1 V' (Proc.devRef .tc Cert.ReferenceIdeal.main_v20)) i := by
  rw [r1_cov]
  exact cov_read _ _ i

end Cert.Bridge

end
-- ==== Proof.AffineR.lean ====
/- The reference program's last matrix product and bias, read at an index over the extended reals. -/
import proofs.«139421_j37855841747396_1_alg».proof.Proof.Names
import Idealize.ShloMosaic.PureOps.Ideal.Laws
import Idealize.ShloMosaic.Lib.Pipeline.Value

noncomputable section

namespace Cert.Bridge

open Idealize.ShloMosaic Idealize.ShloMosaic.StableHlo Idealize.ShloMosaic.ValueIdx

section Product

open Cert.ReferenceIdeal

/-- The left operand's row axis is the result's row axis. -/
theorem affineR_lhs_0 (i : S64x802816.Idx) (q : dot_S64x64_S64x802816_S64x802816_1_0_0_1_n_n.contr.Idx) :
    (dot_S64x64_S64x802816_S64x802816_1_0_0_1_n_n.lhsIdx i q 0).val = (i 0).val := by
  unfold DotDims.lhsIdx
  rw [dif_neg (show ¬(0 : Fin S64x64.rank) ∈ dot_S64x64_S64x802816_S64x802816_1_0_0_1_n_n.lhsBatch by decide), dif_pos (show (0 : Fin S64x64.rank) ∈ dot_S64x64_S64x802816_S64x802816_1_0_0_1_n_n.lhsNonContracting by decide)]
  rfl
/-- The left operand's column axis is the contracted one. -/
theorem affineR_lhs_1 (i : S64x802816.Idx) (q : dot_S64x64_S64x802816_S64x802816_1_0_0_1_n_n.contr.Idx) :
    (dot_S64x64_S64x802816_S64x802816_1_0_0_1_n_n.lhsIdx i q 1).val = (q ⟨0, by decide⟩).val :=
  dot_S64x64_S64x802816_S64x802816_1_0_0_1_n_n.lhsIdx_val_of_single rfl i q
/-- The right operand's row axis is the contracted one. -/
theorem affineR_rhs_0 (i : S64x802816.Idx) (q : dot_S64x64_S64x802816_S64x802816_1_0_0_1_n_n.contr.Idx) :
    (dot_S64x64_S64x802816_S64x802816_1_0_0_1_n_n.rhsIdx i q 0).val = (q ⟨0, by decide⟩).val :=
  dot_S64x64_S64x802816_S64x802816_1_0_0_1_n_n.rhsIdx_val_of_single rfl i q
/-- The right operand's column axis is the result's column axis. -/
theorem affineR_rhs_1 (i : S64x802816.Idx) (q : dot_S64x64_S64x802816_S64x802816_1_0_0_1_n_n.contr.Idx) :
    (dot_S64x64_S64x802816_S64x802816_1_0_0_1_n_n.rhsIdx i q 1).val = (i 1).val := by
  unfold DotDims.rhsIdx
  rw [dif_neg (show ¬(1 : Fin S64x802816.rank) ∈ dot_S64x64_S64x802816_S64x802816_1_0_0_1_n_n.rhsBatch by decide), dif_pos (show (1 : Fin S64x802816.rank) ∈ dot_S64x64_S64x802816_S64x802816_1_0_0_1_n_n.rhsNonContracting by decide)]
  rfl

/-- The 64 × 64 by 64 × 802816 matrix product over the extended reals: entry (g, j) is the sum over k of the left
    operand at (g, k) times the right operand at (k, j). -/
theorem affineR_dot (y0 : (⟨S64x64, .f32⟩ : BufTy).Contents (Elt Ideal)) (y1 : (⟨S64x802816, .f32⟩ : BufTy).Contents (Elt Ideal))
    (i : S64x802816.Idx) :
    Host.dotGeneral (F := Ideal) (φ₁ := .f32) (φ₂ := .f32) dot_S64x64_S64x802816_S64x802816_1_0_0_1_n_n none y0 y1 i
      = ∑ k : Fin 64, ex TG y0 (ix2 (i 0) k) * ex TX y1 (ix2 k (i 1)) := by
  simp only [Host.dotGeneral]
  rw [Ideal.dotGeneral_apply, ← Equiv.sum_comp (ValueIdx.contrEquiv1 dot_S64x64_S64x802816_S64x802816_1_0_0_1_n_n 64 rfl rfl).symm]
  refine Finset.sum_congr rfl fun k _ => ?_
  have hk := ValueIdx.contrEquiv1_symm_val dot_S64x64_S64x802816_S64x802816_1_0_0_1_n_n 64 rfl rfl k
  have el : dot_S64x64_S64x802816_S64x802816_1_0_0_1_n_n.lhsIdx i ((ValueIdx.contrEquiv1 dot_S64x64_S64x802816_S64x802816_1_0_0_1_n_n 64 rfl rfl).symm k) = ix2 (i 0) k := funext fun a => Fin.ext (by
    match a with
    | ⟨0, _⟩ => exact affineR_lhs_0 _ _
    | ⟨1, _⟩ => exact (affineR_lhs_1 _ _).trans hk)
  have er : dot_S64x64_S64x802816_S64x802816_1_0_0_1_n_n.rhsIdx i ((ValueIdx.contrEquiv1 dot_S64x64_S64x802816_S64x802816_1_0_0_1_n_n 64 rfl rfl).symm k) = ix2 k (i 1) := funext fun a => Fin.ext (by
    match a with
    | ⟨0, _⟩ => exact (affineR_rhs_0 _ _).trans hk
    | ⟨1, _⟩ => exact affineR_rhs_1 _ _)
  rw [el, er]
  rfl

/-- The bias column broadcast along the samples: entry (g, j) is the column's entry (g, 0). -/
theorem affineR_bias (x2 : (⟨S64x1, .f32⟩ : BufTy).Contents (Elt Ideal)) (i : S64x802816.Idx) :
    broadcastInDim S64x802816 ![0, 1] Gen.bcast_S64x1_S64x802816_0_1 x2 i = ex TC x2 (ix2 (i 0) 0) :=
  broadcastInDim_apply _ Gen.bcast_S64x1_S64x802816_0_1 x2 i (ix2 (i 0) 0) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

end Product

/-- Entry (g, j) of the result: the sum over k of the matrix at (g, k) times the centred rows at (k, j), plus the bias of row g. -/
theorem affineR (V' : RV Ideal) (i : TX.Idx) :
    ex TX (after Cert.ReferenceIdeal.RefOps.r4 V' (Proc.devRef .tc Cert.ReferenceIdeal.main_v117)) i
      = ∑ k : Fin 64, ex TG (V' (Proc.devRef .tc Cert.ReferenceIdeal.main_v114)) (ix2 (i 0) k) * ex TX (V' (Proc.devRef .tc Cert.ReferenceIdeal.main_v8)) (ix2 k (i 1))
          + ex TC (V' (Proc.devRef .tc Cert.ReferenceIdeal.main_arg2)) (ix2 (i 0) 0) := by
  after_results
  refine (addf_apply _ _ i).trans ?_
  rw [affineR_dot, affineR_bias]

end Cert.Bridge

end
-- ==== Proof.Region0.lean ====
/- The first launch accumulates, block of 8192 samples by block, each row's sum and each pair of rows' product sum; over the extended reals what it leaves is the sum over all 802816 samples. -/
import proofs.«139421_j37855841747396_1_alg».proof.Proof.Names
import Idealize.ShloMosaic.PureOps.Ideal.Laws
import Idealize.ShloMosaic.Lib.Pipeline.Value
import Idealize.ShloMosaic.Lib.ValueLayout
import Idealize.ShloMosaic.Lib.Tactic

noncomputable section

namespace Cert.Bridge

open Idealize.ShloMosaic Idealize.ShloMosaic.StableHlo Idealize.ShloMosaic.ValueIdx

namespace Region0

section Accumulation

open Idealize.ShloMosaic.TcCoe Idealize.SL.Sem
open Idealize.ShloMosaic.Pipeline (Dat)
open Cert.KernelIdeal Cert.KernelIdeal.Gen

variable {F : FTy → Type} [FloatOps F]

/-- The offsets (0, 0) of every access of the body are the zero offsets. -/
theorem hz2 : (![0, 0] : Fin 2 → Nat) = fun _ => 0 := funext fun a => by fin_cases a <;> rfl

/-- The zero column the reset stores. -/
abbrev zcol : Vec F S64x1 .f32 := broadcast S64x1 (Scalar.ofBits .f32 0x00000000#32)
/-- The zero matrix the reset stores. -/
abbrev zmat : Vec F S64x64 .f32 := broadcast S64x64 (Scalar.ofBits .f32 0x00000000#32)

/-- One block's row sums, as a column. -/
abbrev rowsum (x : Vec F S64x8192 .f32) : Vec F S64x1 .f32 :=
  shapeCast S64x1 (multiReduction .add [1] S64 x 0x00000000#32 reduces_S64x8192_S64 (.inl rfl) rfl) shapeCasts_S64_S64x1
/-- One block's Gram matrix: the block times its own transpose, from the zero matrix. -/
abbrev gram (x : Vec F S64x8192 .f32) : Vec F S64x64 .f32 :=
  matmul dot_S64x8192_S64x8192_S64x64_1_1_0_0_n_n (some .fp32) x x (constant S64x64 .f32 0x00000000#32)

/-! ## What one point leaves in the two outputs' blocks -/

/-- At a later point the body leaves, over the column carried from the point before, that column plus the block's row sums. -/
theorem outB1 (c : Dev nD) (i : grid0.Coords) (a1 : Memref sig .tc .vmem S64x8192 .f32) (h1 : a1.IsWhole)
    (a2 : Memref sig .tc .vmem S64x1 .f32) (h2 : a2.IsWhole) (a3 : Memref sig .tc .vmem S64x64 .f32) (h3 : a3.IsWhole)
    (hc : ¬cond0_0 i) (x : Vec F S64x8192 .f32) (xo1 : Vec F S64x1 .f32) (xo2 : Vec F S64x64 .f32) :
    out0_B_1 c i a1 h1 a2 h2 a3 h3 hc x xo1 xo2 = addf xo1 (rowsum x) := by
  unfold out0_B_1
  rw [View.read_writes_eq_canon _ _ _ (cover0_B_1 c i a1 h1 a2 h2 a3 h3 hc x xo1 xo2)]
  unfold kernelRun0_B
  dsimp only
  sl_unfold_words
  rw [View.canon_unit_zero hz2]
  unfold k0_pay4 k0_pay3
  simp only [View.readAt_eq_ld, h1.read_unread, h2.read_unread, View.ld_unit_zero (S := S64x8192) hz2,
    View.ld_unit_zero (S := S64x1) hz2, shapeCast_self]

/-- At a later point the body leaves, over the matrix carried from the point before, that matrix plus the block's Gram matrix. -/
theorem outB2 (c : Dev nD) (i : grid0.Coords) (a1 : Memref sig .tc .vmem S64x8192 .f32) (h1 : a1.IsWhole)
    (a2 : Memref sig .tc .vmem S64x1 .f32) (h2 : a2.IsWhole) (a3 : Memref sig .tc .vmem S64x64 .f32) (h3 : a3.IsWhole)
    (hc : ¬cond0_0 i) (x : Vec F S64x8192 .f32) (xo1 : Vec F S64x1 .f32) (xo2 : Vec F S64x64 .f32) :
    out0_B_2 c i a1 h1 a2 h2 a3 h3 hc x xo1 xo2 = addf xo2 (gram x) := by
  unfold out0_B_2
  rw [View.read_writes_eq_canon _ _ _ (cover0_B_2 c i a1 h1 a2 h2 a3 h3 hc x xo1 xo2)]
  unfold kernelRun0_B
  dsimp only
  sl_unfold_words
  rw [View.canon_unit_zero hz2]
  unfold k0_pay5 k0_pay3
  simp only [View.readAt_eq_ld, h1.read_unread, h3.read_unread, View.ld_unit_zero (S := S64x8192) hz2,
    View.ld_unit_zero (S := S64x64) hz2, shapeCast_self]

/-- At the first point the body stores the zero column, reads it back, and leaves it plus the block's row sums. -/
theorem outA1 (c : Dev nD) (i : grid0.Coords) (a1 : Memref sig .tc .vmem S64x8192 .f32) (h1 : a1.IsWhole)
    (a2 : Memref sig .tc .vmem S64x1 .f32) (h2 : a2.IsWhole) (a3 : Memref sig .tc .vmem S64x64 .f32) (h3 : a3.IsWhole)
    (hc : cond0_0 i) (x : Vec F S64x8192 .f32) :
    out0_A_1 c i a1 h1 a2 h2 a3 h3 hc x = addf zcol (rowsum x) := by
  unfold out0_A_1
  rw [View.read_writes_eq_canon _ _ _ (cover0_A_1 c i a1 h1 a2 h2 a3 h3 hc x)]
  unfold kernelRun0_A
  dsimp only
  sl_unfold_words
  rw [View.canon_cons_unit_zero (S := S64x1) hz2, View.readCov_unit_zero (S := S64x1) _ hz2]
  unfold k0_pay4 k0_pay3 k0_pay1
  simp only [View.readAt_eq_ld, h1.read_unread, View.ld_unit_zero (S := S64x8192) hz2, shapeCast_self]

/-- At the first point the body stores the zero matrix, reads it back, and leaves it plus the block's Gram matrix. -/
theorem outA2 (c : Dev nD) (i : grid0.Coords) (a1 : Memref sig .tc .vmem S64x8192 .f32) (h1 : a1.IsWhole)
    (a2 : Memref sig .tc .vmem S64x1 .f32) (h2 : a2.IsWhole) (a3 : Memref sig .tc .vmem S64x64 .f32) (h3 : a3.IsWhole)
    (hc : cond0_0 i) (x : Vec F S64x8192 .f32) :
    out0_A_2 c i a1 h1 a2 h2 a3 h3 hc x = addf zmat (gram x) := by
  unfold out0_A_2
  rw [View.read_writes_eq_canon _ _ _ (cover0_A_2 c i a1 h1 a2 h2 a3 h3 hc x)]
  unfold kernelRun0_A
  dsimp only
  sl_unfold_words
  rw [View.canon_cons_unit_zero (S := S64x64) hz2, View.readCov_unit_zero (S := S64x64) _ hz2]
  unfold k0_pay5 k0_pay3 k0_pay2
  simp only [View.readAt_eq_ld, h1.read_unread, View.ld_unit_zero (S := S64x8192) hz2, shapeCast_self]

section Running
variable (V : (c : Dev nD) → (b : Ref sig .tc) → Buf (Elt F) ((c : Thread nD τ).loc b))

/-- The input window's block of 8192 samples at a point. -/
abbrev xblk (c : Dev nD) (t : Fin cfg0.N) : Vec F S64x8192 .f32 := iblk0 V c 0 t

/-- The row sums accumulated up to and including a point: the zero column plus the first block's, then one block's more at each point. -/
def acc1 (c : Dev nD) : (n : ℕ) → n < cfg0.N → Vec F S64x1 .f32
  | 0, h => addf zcol (rowsum (xblk V c ⟨0, h⟩))
  | n + 1, h => addf (acc1 c n (Nat.lt_of_succ_lt h)) (rowsum (xblk V c ⟨n + 1, h⟩))

/-- The Gram sums accumulated up to and including a point. -/
def acc2 (c : Dev nD) : (n : ℕ) → n < cfg0.N → Vec F S64x64 .f32
  | 0, h => addf zmat (gram (xblk V c ⟨0, h⟩))
  | n + 1, h => addf (acc2 c n (Nat.lt_of_succ_lt h)) (gram (xblk V c ⟨n + 1, h⟩))

set_option maxHeartbeats 400000 in
/-- What the two outputs' staging buffers hold after a point is the accumulated pair, by induction on the point. -/
theorem outsAt_eq (c : Dev nD) : ∀ (n : ℕ) (h : n < cfg0.N), outsAt0 V c n h = (acc1 V c n h, acc2 V c n h)
  | 0, h => (outsAt0_A V c ⟨0, h⟩ rfl).trans (Prod.ext
      (outA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) ((hcond0_0 ⟨0, h⟩).mpr rfl) (xblk V c ⟨0, h⟩))
      (outA2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) ((hcond0_0 ⟨0, h⟩).mpr rfl) (xblk V c ⟨0, h⟩)))
  | n + 1, h => by
    have hN : cfg0.N = 98 := N_0
    have hB : ¬(⟨n + 1, h⟩ : Fin cfg0.N).val % 98 = 0 := by dsimp only; omega
    rw [outsAt0_B V c ⟨n + 1, h⟩ hB]
    simp only [Nat.add_sub_cancel]
    rw [outsAt_eq c n (Nat.lt_of_succ_lt h)]
    dsimp only
    refine Prod.ext ?_ ?_
    · exact outB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hB ((hcond0_0 ⟨n + 1, h⟩).mp hh)) (xblk V c ⟨n + 1, h⟩) (acc1 V c n (Nat.lt_of_succ_lt h)) (acc2 V c n (Nat.lt_of_succ_lt h))
    · exact outB2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hB ((hcond0_0 ⟨n + 1, h⟩).mp hh)) (xblk V c ⟨n + 1, h⟩) (acc1 V c n (Nat.lt_of_succ_lt h)) (acc2 V c n (Nat.lt_of_succ_lt h))

end Running

section AtIdeal

/-- A block's row sum at row g: the sum of the row's 8192 entries. -/
theorem rowsum_apply (x : FVec Ideal S64x8192 .f32) (g : Fin 64) :
    rowsum (F := Ideal) x (ix2 g (0 : Fin 1)) = ∑ l : Fin 8192, x (ix2 g l) := by
  refine (shapeCast_apply _ shapeCasts_S64_S64x1 (ix2 g (0 : Fin 1)) (ix1 g) ?_).trans ?_
  · rw [Shape.rowMajor_val_two, Shape.rowMajor_val_one]
    show g.val = g.val * 1 + 0
    omega
  refine (Ideal.multiReduction_add_single x 0x00000000#32 reduces_S64x8192_S64 (.inl rfl) rfl (ix1 g)).trans ?_
  refine Finset.sum_congr rfl fun l _ => congrArg x (funext fun a => Fin.ext ?_)
  match a with
  | ⟨0, _⟩ => rfl
  | ⟨1, _⟩ => rfl

/-- The Gram product's operand indices at output (g, g') and contraction position k are (g, k) and (g', k), axis by axis. -/
theorem gram_lhs_0 (i : S64x64.Idx) (q : dot_S64x8192_S64x8192_S64x64_1_1_0_0_n_n.contr.Idx) :
    (dot_S64x8192_S64x8192_S64x64_1_1_0_0_n_n.lhsIdx i q 0).val = (i 0).val := by
  unfold DotDims.lhsIdx
  rw [dif_neg (show ¬(0 : Fin S64x8192.rank) ∈ dot_S64x8192_S64x8192_S64x64_1_1_0_0_n_n.lhsBatch by decide), dif_pos (show (0 : Fin S64x8192.rank) ∈ dot_S64x8192_S64x8192_S64x64_1_1_0_0_n_n.lhsNonContracting by decide)]
  rfl
theorem gram_lhs_1 (i : S64x64.Idx) (q : dot_S64x8192_S64x8192_S64x64_1_1_0_0_n_n.contr.Idx) :
    (dot_S64x8192_S64x8192_S64x64_1_1_0_0_n_n.lhsIdx i q 1).val = (q ⟨0, by decide⟩).val :=
  dot_S64x8192_S64x8192_S64x64_1_1_0_0_n_n.lhsIdx_val_of_single rfl i q
theorem gram_rhs_0 (i : S64x64.Idx) (q : dot_S64x8192_S64x8192_S64x64_1_1_0_0_n_n.contr.Idx) :
    (dot_S64x8192_S64x8192_S64x64_1_1_0_0_n_n.rhsIdx i q 0).val = (i 1).val := by
  unfold DotDims.rhsIdx
  rw [dif_neg (show ¬(0 : Fin S64x8192.rank) ∈ dot_S64x8192_S64x8192_S64x64_1_1_0_0_n_n.rhsBatch by decide), dif_pos (show (0 : Fin S64x8192.rank) ∈ dot_S64x8192_S64x8192_S64x64_1_1_0_0_n_n.rhsNonContracting by decide)]
  rfl
theorem gram_rhs_1 (i : S64x64.Idx) (q : dot_S64x8192_S64x8192_S64x64_1_1_0_0_n_n.contr.Idx) :
    (dot_S64x8192_S64x8192_S64x64_1_1_0_0_n_n.rhsIdx i q 1).val = (q ⟨0, by decide⟩).val :=
  dot_S64x8192_S64x8192_S64x64_1_1_0_0_n_n.rhsIdx_val_of_single rfl i q

/-- A block's Gram entry at rows g, g': the sum over the 8192 samples of the two rows' products. -/
theorem gram_apply (x : FVec Ideal S64x8192 .f32) (g g' : Fin 64) :
    gram (F := Ideal) x (ix2 g g') = ∑ l : Fin 8192, x (ix2 g l) * x (ix2 g' l) := by
  show FloatOps.matmul dot_S64x8192_S64x8192_S64x64_1_1_0_0_n_n (some .fp32) x x (constant S64x64 .f32 0x00000000#32) (ix2 g g') = _
  rw [Ideal.matmul_constant_zero_apply, ← Equiv.sum_comp (ValueIdx.contrEquiv1 dot_S64x8192_S64x8192_S64x64_1_1_0_0_n_n 8192 rfl rfl).symm]
  refine Finset.sum_congr rfl fun k _ => ?_
  have hk := ValueIdx.contrEquiv1_symm_val dot_S64x8192_S64x8192_S64x64_1_1_0_0_n_n 8192 rfl rfl k
  have el : dot_S64x8192_S64x8192_S64x64_1_1_0_0_n_n.lhsIdx (ix2 g g') ((ValueIdx.contrEquiv1 dot_S64x8192_S64x8192_S64x64_1_1_0_0_n_n 8192 rfl rfl).symm k) = ix2 g k := funext fun a => Fin.ext (by
    match a with
    | ⟨0, _⟩ => exact gram_lhs_0 _ _
    | ⟨1, _⟩ => exact (gram_lhs_1 _ _).trans hk)
  have er : dot_S64x8192_S64x8192_S64x64_1_1_0_0_n_n.rhsIdx (ix2 g g') ((ValueIdx.contrEquiv1 dot_S64x8192_S64x8192_S64x64_1_1_0_0_n_n 8192 rfl rfl).symm k) = ix2 g' k := funext fun a => Fin.ext (by
    match a with
    | ⟨0, _⟩ => exact gram_rhs_0 _ _
    | ⟨1, _⟩ => exact (gram_rhs_1 _ _).trans hk)
  rw [el, er]

end AtIdeal

section Blocks
variable (V : (c : Dev nD) → (b : Ref sig .tc) → Buf (Elt F) ((c : Thread nD τ).loc b))

/-- The input window's block at point t is row block 0, sample block t. -/
theorem idx_in : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- The row-sum output's block never moves and is uncut. -/
theorem idx_out1 : ∀ t : Fin cfg0.N, win0_1.index t (0 : Fin 2) = 0 ∧ win0_1.index t (1 : Fin 2) = 0
    ∧ win0_1.xsize (grid0.coords t) (0 : Fin 2) = 64 ∧ win0_1.xsize (grid0.coords t) (1 : Fin 2) = 1 :=
  (by decide +kernel : ∀ t : Fin grid0.N, win0_1.index t (0 : Fin 2) = 0 ∧ win0_1.index t (1 : Fin 2) = 0
    ∧ win0_1.xsize (grid0.coords t) (0 : Fin 2) = 64 ∧ win0_1.xsize (grid0.coords t) (1 : Fin 2) = 1)
/-- The Gram output's block never moves and is uncut. -/
theorem idx_out2 : ∀ t : Fin cfg0.N, win0_2.index t (0 : Fin 2) = 0 ∧ win0_2.index t (1 : Fin 2) = 0
    ∧ win0_2.xsize (grid0.coords t) (0 : Fin 2) = 64 ∧ win0_2.xsize (grid0.coords t) (1 : Fin 2) = 64 :=
  (by decide +kernel : ∀ t : Fin grid0.N, win0_2.index t (0 : Fin 2) = 0 ∧ win0_2.index t (1 : Fin 2) = 0
    ∧ win0_2.xsize (grid0.coords t) (0 : Fin 2) = 64 ∧ win0_2.xsize (grid0.coords t) (1 : Fin 2) = 64)

/-- The array the input window reads, as the launch finds it. -/
abbrev xarr (c : Dev nD) : Vec F S64x802816 .f32 := V c main_v2

/-- Entry (g, l) of the block at point t is the array's entry (g, 8192 t + l). -/
theorem xblk_apply (c : Dev nD) (t : Fin cfg0.N) (g : Fin 64) (l : Fin 8192) (j : Fin 802816)
    (hj : j.val = 8192 * t.val + l.val) : xblk V c t (ix2 g l) = xarr V c (ix2 g j) := by
  obtain ⟨e0, e1⟩ := idx_in t
  show ((cfg0.win 0).blk t).view.read (Elt F) (V c (Pipeline.arrRef spec0 0)) (ix2 g l) = _
  rw [View.read_apply]
  show V c main_v2 (((cfg0.win 0).blk t).view.emb (ix2 g l)) = V c main_v2 (ix2 g j)
  congr 1
  funext a
  apply Fin.ext
  match a with
  | ⟨0, _⟩ => show win0_0.index t (0 : Fin 2) * 64 + 1 * g.val = g.val; omega
  | ⟨1, _⟩ => show win0_0.index t (1 : Fin 2) * 8192 + 1 * l.val = j.val; omega

/-- The last point. -/
abbrev tlast : Fin cfg0.N := ⟨97, by rw [show cfg0.N = 98 from N_0]; decide⟩

/-- The accumulated row sums after the last point, as contents of the result array (its one block is the array). -/
abbrev res1 (c : Dev nD) : Buf (Elt F) ((c : Thread nD τ).loc main_v3_0) := acc1 V c 97 tlast.isLt
/-- The accumulated Gram sums after the last point. -/
abbrev res2 (c : Dev nD) : Buf (Elt F) ((c : Thread nD τ).loc main_v3_1) := acc2 V c 97 tlast.isLt

set_option maxHeartbeats 400000 in
/-- The one write-back of the row sums, after the last point, writes the accumulated column. -/
theorem flushed1_eq (c : Dev nD) (t : Fin cfg0.N) (hf : (cfg0.win 1).flush t = true) :
    (dat0 V c).flushed 1 t = ((cfg0.win 1).blk t).view.read (Elt F) (res1 V c) := by
  have hN : cfg0.N = 98 := N_0
  have h3 : t.val = 97 := by have := (flush0_1 t).mp hf; have := t.isLt; omega
  obtain rfl : t = tlast := Fin.ext h3
  show (cfg0.win 1).cut (grid0.coords tlast) ((dat0 V c).after 1 tlast) = _
  rw [after0_1, outsAt_eq]
  dsimp only
  obtain ⟨e0, e1, -, -⟩ := idx_out1 tlast
  have hz' : (fun a => win0_1.index tlast a * main_v3_0.ty.shape.size a) = fun _ => 0 := funext fun a => by
    match a with
    | ⟨0, _⟩ => show win0_1.index tlast (0 : Fin 2) * _ = 0; rw [e0, Nat.zero_mul]
    | ⟨1, _⟩ => show win0_1.index tlast (1 : Fin 2) * _ = 0; rw [e1, Nat.zero_mul]
  exact (Memref.read_access_unit_zero (Elt F) main_v3_0 hz' (fun a => by rw [congrFun hz' a]; simp) (res1 V c)).symm

end Blocks

section Blocks2
variable (V : (c : Dev nD) → (b : Ref sig .tc) → Buf (Elt F) ((c : Thread nD τ).loc b))

set_option maxHeartbeats 400000 in
/-- The one write-back of the Gram sums, after the last point, writes the accumulated matrix. -/
theorem flushed2_eq (c : Dev nD) (t : Fin cfg0.N) (hf : (cfg0.win 2).flush t = true) :
    (dat0 V c).flushed 2 t = ((cfg0.win 2).blk t).view.read (Elt F) (res2 V c) := by
  have hN : cfg0.N = 98 := N_0
  have h3 : t.val = 97 := by have := (flush0_2 t).mp hf; have := t.isLt; omega
  obtain rfl : t = tlast := Fin.ext h3
  show (cfg0.win 2).cut (grid0.coords tlast) ((dat0 V c).after 2 tlast) = _
  rw [after0_2, outsAt_eq]
  dsimp only
  obtain ⟨e0, e1, -, -⟩ := idx_out2 tlast
  have hz' : (fun a => win0_2.index tlast a * main_v3_1.ty.shape.size a) = fun _ => 0 := funext fun a => by
    match a with
    | ⟨0, _⟩ => show win0_2.index tlast (0 : Fin 2) * _ = 0; rw [e0, Nat.zero_mul]
    | ⟨1, _⟩ => show win0_2.index tlast (1 : Fin 2) * _ = 0; rw [e1, Nat.zero_mul]
  exact (Memref.read_access_unit_zero (Elt F) main_v3_1 hz' (fun a => by rw [congrFun hz' a]; simp) (res2 V c)).symm

set_option maxHeartbeats 400000 in
/-- The row-sum array after the run: the last point's block covers it. -/
theorem final1 (c : Dev nD) : (dat0 V c).arrAt 1 cfg0.N = res1 V c :=
  (dat0 V c).arrAt_eq_of_cover 1 (res1 V c) (flushed1_eq V c) fun i =>
    ⟨tlast, (flush0_1 tlast).mpr rfl, by
      show i ∈ ((View.whole main_v3_0).slice (win0_1.rect tlast)).set
      rw [View.set_slice_whole, Rect.mem_set_unit]
      intro a
      obtain ⟨e0, e1, x0, x1⟩ := idx_out1 tlast
      have h0 : (i 0 : Nat) < 64 := (i 0).isLt
      have h1 : (i 1 : Nat) < 1 := (i 1).isLt
      match a with
      | ⟨0, _⟩ =>
        show win0_1.index tlast (0 : Fin 2) * win0_1.size (0 : Fin 2) ≤ (i 0 : Nat) ∧ (i 0 : Nat) < win0_1.index tlast (0 : Fin 2) * win0_1.size (0 : Fin 2) + win0_1.xsize (grid0.coords tlast) (0 : Fin 2)
        rw [e0, x0]; omega
      | ⟨1, _⟩ =>
        show win0_1.index tlast (1 : Fin 2) * win0_1.size (1 : Fin 2) ≤ (i 1 : Nat) ∧ (i 1 : Nat) < win0_1.index tlast (1 : Fin 2) * win0_1.size (1 : Fin 2) + win0_1.xsize (grid0.coords tlast) (1 : Fin 2)
        rw [e1, x1]; omega⟩

set_option maxHeartbeats 400000 in
/-- The Gram array after the run: the last point's block covers it. -/
theorem final2 (c : Dev nD) : (dat0 V c).arrAt 2 cfg0.N = res2 V c :=
  (dat0 V c).arrAt_eq_of_cover 2 (res2 V c) (flushed2_eq V c) fun i =>
    ⟨tlast, (flush0_2 tlast).mpr rfl, by
      show i ∈ ((View.whole main_v3_1).slice (win0_2.rect tlast)).set
      rw [View.set_slice_whole, Rect.mem_set_unit]
      intro a
      obtain ⟨e0, e1, x0, x1⟩ := idx_out2 tlast
      have h0 : (i 0 : Nat) < 64 := (i 0).isLt
      have h1 : (i 1 : Nat) < 64 := (i 1).isLt
      match a with
      | ⟨0, _⟩ =>
        show win0_2.index tlast (0 : Fin 2) * win0_2.size (0 : Fin 2) ≤ (i 0 : Nat) ∧ (i 0 : Nat) < win0_2.index tlast (0 : Fin 2) * win0_2.size (0 : Fin 2) + win0_2.xsize (grid0.coords tlast) (0 : Fin 2)
        rw [e0, x0]; omega
      | ⟨1, _⟩ =>
        show win0_2.index tlast (1 : Fin 2) * win0_2.size (1 : Fin 2) ≤ (i 1 : Nat) ∧ (i 1 : Nat) < win0_2.index tlast (1 : Fin 2) * win0_2.size (1 : Fin 2) + win0_2.xsize (grid0.coords tlast) (1 : Fin 2)
        rw [e1, x1]; omega⟩

end Blocks2

section Sums
variable (V : (c : Dev nD) → (b : Ref sig .tc) → Buf (Elt Ideal) ((c : Thread nD τ).loc b))

/-- Row g of the input array by the sample's natural number (zero past the end). -/
def rowN (c : Dev nD) (g : Fin 64) (j : ℕ) : EReal :=
  if hj : j < 802816 then (xarr V c (ix2 g ⟨j, hj⟩) : EReal) else 0

/-- A block's entry is the row's entry at the sample's number 8192 t + l. -/
theorem rowN_blk (c : Dev nD) (t : Fin cfg0.N) (g : Fin 64) (l : Fin 8192) :
    (xblk V c t (ix2 g l) : EReal) = rowN V c g (8192 * t.val + l.val) := by
  have hN : cfg0.N = 98 := N_0
  have ht := t.isLt
  have hl := l.isLt
  have hj : 8192 * t.val + l.val < 802816 := by omega
  unfold rowN
  rw [dif_pos hj]
  exact xblk_apply V c t g l ⟨_, hj⟩ rfl

/-- One block's row sum is the sum of the row over the block's 8192 samples. -/
theorem blk_rowsum (c : Dev nD) (t : Fin cfg0.N) (g : Fin 64) :
    (rowsum (F := Ideal) (xblk V c t) (ix2 g (0 : Fin 1)) : EReal) = ∑ l ∈ Finset.range 8192, rowN V c g (8192 * t.val + l) := by
  refine (rowsum_apply (xblk V c t) g).trans ?_
  rw [Finset.sum_range]
  exact Finset.sum_congr rfl fun l _ => rowN_blk V c t g l

/-- One block's Gram entry is the sum of the two rows' products over the block's 8192 samples. -/
theorem blk_gram (c : Dev nD) (t : Fin cfg0.N) (g g' : Fin 64) :
    (gram (F := Ideal) (xblk V c t) (ix2 g g') : EReal)
      = ∑ l ∈ Finset.range 8192, rowN V c g (8192 * t.val + l) * rowN V c g' (8192 * t.val + l) := by
  refine (gram_apply (xblk V c t) g g').trans ?_
  rw [Finset.sum_range]
  exact Finset.sum_congr rfl fun l _ => congrArg₂ (· * ·) (rowN_blk V c t g l) (rowN_blk V c t g' l)

/-- The accumulated row sum after point n is the row's sum over the first 8192 (n + 1) samples. -/
theorem acc1_apply (c : Dev nD) (g : Fin 64) : ∀ (n : ℕ) (h : n < cfg0.N),
    (acc1 V c n h (ix2 g (0 : Fin 1)) : EReal) = ∑ j ∈ Finset.range (8192 * (n + 1)), rowN V c g j
  | 0, h => by
    show (Ideal.ofBits .f32 0x00000000#32 : EReal) + (rowsum (F := Ideal) (xblk V c ⟨0, h⟩) (ix2 g (0 : Fin 1)) : EReal) = _
    rw [Ideal.ofBits_zero_f32, zero_add, blk_rowsum]
    simp only [Nat.mul_zero, Nat.zero_add, Nat.mul_one]
  | n + 1, h => by
    show (acc1 V c n (Nat.lt_of_succ_lt h) (ix2 g (0 : Fin 1)) : EReal) + (rowsum (F := Ideal) (xblk V c ⟨n + 1, h⟩) (ix2 g (0 : Fin 1)) : EReal) = _
    rw [acc1_apply c g n, blk_rowsum, show 8192 * (n + 1 + 1) = 8192 * (n + 1) + 8192 by omega, Finset.sum_range_add]

/-- The accumulated Gram entry after point n is the sum of the two rows' products over the first 8192 (n + 1) samples. -/
theorem acc2_apply (c : Dev nD) (g g' : Fin 64) : ∀ (n : ℕ) (h : n < cfg0.N),
    (acc2 V c n h (ix2 g g') : EReal) = ∑ j ∈ Finset.range (8192 * (n + 1)), rowN V c g j * rowN V c g' j
  | 0, h => by
    show (Ideal.ofBits .f32 0x00000000#32 : EReal) + (gram (F := Ideal) (xblk V c ⟨0, h⟩) (ix2 g g') : EReal) = _
    rw [Ideal.ofBits_zero_f32, zero_add, blk_gram]
    simp only [Nat.mul_zero, Nat.zero_add, Nat.mul_one]
  | n + 1, h => by
    show (acc2 V c n (Nat.lt_of_succ_lt h) (ix2 g g') : EReal) + (gram (F := Ideal) (xblk V c ⟨n + 1, h⟩) (ix2 g g') : EReal) = _
    rw [acc2_apply c g g' n, blk_gram, show 8192 * (n + 1 + 1) = 8192 * (n + 1) + 8192 by omega, Finset.sum_range_add]

/-- Inside the array the row by number is the array's row. -/
theorem rowN_fin (c : Dev nD) (g : Fin 64) (j : Fin 802816) : rowN V c g j.val = (xarr V c (ix2 g j) : EReal) := by
  unfold rowN
  rw [dif_pos j.isLt]

/-- After the last point the accumulated row sum is the whole row's. -/
theorem res1_apply (c : Dev nD) (g : Fin 64) :
    (res1 V c (ix2 g (0 : Fin 1)) : EReal) = ∑ j : Fin 802816, (xarr V c (ix2 g j) : EReal) := by
  refine (acc1_apply V c g 97 tlast.isLt).trans ?_
  rw [show 8192 * (97 + 1) = 802816 from rfl, Finset.sum_range]
  exact Finset.sum_congr rfl fun j _ => rowN_fin V c g j

/-- After the last point the accumulated Gram entry is the sum over all samples of the two rows' products. -/
theorem res2_apply (c : Dev nD) (g g' : Fin 64) :
    (res2 V c (ix2 g g') : EReal) = ∑ j : Fin 802816, (xarr V c (ix2 g j) : EReal) * (xarr V c (ix2 g' j) : EReal) := by
  refine (acc2_apply V c g g' 97 tlast.isLt).trans ?_
  rw [show 8192 * (97 + 1) = 802816 from rfl, Finset.sum_range]
  exact Finset.sum_congr rfl fun j _ => congrArg₂ (· * ·) (rowN_fin V c g j) (rowN_fin V c g' j)

end Sums

end Accumulation

end Region0

variable (m : (ℓ : Loc Cert.KernelIdeal.nD Cert.KernelIdeal.τ Cert.KernelIdeal.sig) → Buf (Elt Ideal) ℓ) (ρ : Dev Cert.KernelIdeal.nD → PrngReg)

/-- The launch reads the re-laid input and leaves it as it was. -/
theorem x1_kept (c : Dev Cert.KernelIdeal.nD) :
    Cert.KernelIdeal.Gen.W2 m ρ c (Proc.devRef .tc Cert.KernelIdeal.main_v2) = Cert.KernelIdeal.Gen.W1 m ρ c (Proc.devRef .tc Cert.KernelIdeal.main_v2) := by
  refine (Cert.KernelIdeal.Gen.W2_arr m ρ c 0).trans ?_
  rw [(Cert.KernelIdeal.Gen.dat0 (Cert.KernelIdeal.Gen.V1 m ρ) c).arrAt_in 0 rfl Cert.KernelIdeal.cfg0.N, Cert.KernelIdeal.Gen.A_eq0]

/-- Row g's accumulated sum is the sum of the row. -/
theorem s1_value (c : Dev Cert.KernelIdeal.nD) (g : Fin 64) :
    ex TC (Cert.KernelIdeal.Gen.W2 m ρ c (Proc.devRef .tc Cert.KernelIdeal.main_v3_0)) (ix2 g 0)
      = ∑ j : Fin 802816, ex TX (Cert.KernelIdeal.Gen.W1 m ρ c (Proc.devRef .tc Cert.KernelIdeal.main_v2)) (ix2 g j) := by
  have e : Cert.KernelIdeal.Gen.W2 m ρ c (Proc.devRef .tc Cert.KernelIdeal.main_v3_0) = Region0.res1 (Cert.KernelIdeal.Gen.V1 m ρ) c :=
    (Cert.KernelIdeal.Gen.W2_arr m ρ c 1).trans (Region0.final1 (Cert.KernelIdeal.Gen.V1 m ρ) c)
  exact (congrFun e (ix2 g (0 : Fin 1))).trans (Region0.res1_apply (Cert.KernelIdeal.Gen.V1 m ρ) c g)

/-- Rows g and g' accumulate the sum of their entrywise products. -/
theorem s2_value (c : Dev Cert.KernelIdeal.nD) (g g' : Fin 64) :
    ex TG (Cert.KernelIdeal.Gen.W2 m ρ c (Proc.devRef .tc Cert.KernelIdeal.main_v3_1)) (ix2 g g')
      = ∑ j : Fin 802816, ex TX (Cert.KernelIdeal.Gen.W1 m ρ c (Proc.devRef .tc Cert.KernelIdeal.main_v2)) (ix2 g j)
          * ex TX (Cert.KernelIdeal.Gen.W1 m ρ c (Proc.devRef .tc Cert.KernelIdeal.main_v2)) (ix2 g' j) := by
  have e : Cert.KernelIdeal.Gen.W2 m ρ c (Proc.devRef .tc Cert.KernelIdeal.main_v3_1) = Region0.res2 (Cert.KernelIdeal.Gen.V1 m ρ) c :=
    (Cert.KernelIdeal.Gen.W2_arr m ρ c 2).trans (Region0.final2 (Cert.KernelIdeal.Gen.V1 m ρ) c)
  exact (congrFun e (ix2 g g')).trans (Region0.res2_apply (Cert.KernelIdeal.Gen.V1 m ρ) c g g')

end Cert.Bridge

end
-- ==== Proof.Region1.lean ====
/- The second launch applies the affine map block of 8192 samples by block; the blocks tile the result array, so over the extended reals every entry is the matrix row times the centred column plus the bias. -/
import proofs.«139421_j37855841747396_1_alg».proof.Proof.Names
import Idealize.ShloMosaic.PureOps.Ideal.Laws
import Idealize.ShloMosaic.Lib.Pipeline.Value
import Idealize.ShloMosaic.Lib.ValueLayout

noncomputable section

namespace Cert.Bridge

open Idealize.ShloMosaic Idealize.ShloMosaic.StableHlo Idealize.ShloMosaic.ValueIdx

/-! ## The block product's index maps: the left factor is read at (row, k), the right factor at (k, column) -/

open Cert.KernelIdeal in
/-- The left factor's row is the result's row. -/
theorem affine_lhs_0 (i : S64x8192.Idx) (q : dot_S64x64_S64x8192_S64x8192_1_0_0_1_n_n.contr.Idx) :
    (dot_S64x64_S64x8192_S64x8192_1_0_0_1_n_n.lhsIdx i q 0).val = (i 0).val := by
  unfold DotDims.lhsIdx
  rw [dif_neg (show ¬(0 : Fin S64x64.rank) ∈ dot_S64x64_S64x8192_S64x8192_1_0_0_1_n_n.lhsBatch by decide), dif_pos (show (0 : Fin S64x64.rank) ∈ dot_S64x64_S64x8192_S64x8192_1_0_0_1_n_n.lhsNonContracting by decide)]
  rfl
open Cert.KernelIdeal in
/-- The left factor's column is the summation index. -/
theorem affine_lhs_1 (i : S64x8192.Idx) (q : dot_S64x64_S64x8192_S64x8192_1_0_0_1_n_n.contr.Idx) :
    (dot_S64x64_S64x8192_S64x8192_1_0_0_1_n_n.lhsIdx i q 1).val = (q ⟨0, by decide⟩).val :=
  dot_S64x64_S64x8192_S64x8192_1_0_0_1_n_n.lhsIdx_val_of_single rfl i q
open Cert.KernelIdeal in
/-- The right factor's row is the summation index. -/
theorem affine_rhs_0 (i : S64x8192.Idx) (q : dot_S64x64_S64x8192_S64x8192_1_0_0_1_n_n.contr.Idx) :
    (dot_S64x64_S64x8192_S64x8192_1_0_0_1_n_n.rhsIdx i q 0).val = (q ⟨0, by decide⟩).val :=
  dot_S64x64_S64x8192_S64x8192_1_0_0_1_n_n.rhsIdx_val_of_single rfl i q
open Cert.KernelIdeal in
/-- The right factor's column is the result's column. -/
theorem affine_rhs_1 (i : S64x8192.Idx) (q : dot_S64x64_S64x8192_S64x8192_1_0_0_1_n_n.contr.Idx) :
    (dot_S64x64_S64x8192_S64x8192_1_0_0_1_n_n.rhsIdx i q 1).val = (i 1).val := by
  unfold DotDims.rhsIdx
  rw [dif_neg (show ¬(1 : Fin S64x8192.rank) ∈ dot_S64x64_S64x8192_S64x8192_1_0_0_1_n_n.rhsBatch by decide), dif_pos (show (1 : Fin S64x8192.rank) ∈ dot_S64x64_S64x8192_S64x8192_1_0_0_1_n_n.rhsNonContracting by decide)]
  rfl

open Cert.KernelIdeal in
/-- The block product into a zero accumulator, read at an index: row p of the matrix against column q of the right factor. -/
theorem affine_matmul_apply (a : FVec Ideal S64x64 .f32) (b : FVec Ideal S64x8192 .f32) (p : Fin 64) (q : Fin 8192) :
    FloatOps.matmul dot_S64x64_S64x8192_S64x8192_1_0_0_1_n_n (some .fp32) a b (constant (F := Ideal) S64x8192 .f32 0x00000000#32) (ix2 p q)
      = ∑ k : Fin 64, a (ix2 p k) * b (ix2 k q) := by
  rw [Ideal.matmul_constant_zero_apply, ← Equiv.sum_comp (ValueIdx.contrEquiv1 dot_S64x64_S64x8192_S64x8192_1_0_0_1_n_n 64 rfl rfl).symm]
  refine Finset.sum_congr rfl fun k _ => ?_
  have hk := ValueIdx.contrEquiv1_symm_val dot_S64x64_S64x8192_S64x8192_1_0_0_1_n_n 64 rfl rfl k
  have el : dot_S64x64_S64x8192_S64x8192_1_0_0_1_n_n.lhsIdx (ix2 p q) ((ValueIdx.contrEquiv1 dot_S64x64_S64x8192_S64x8192_1_0_0_1_n_n 64 rfl rfl).symm k) = ix2 p k := funext fun a => Fin.ext (by
    match a with
    | ⟨0, _⟩ => exact affine_lhs_0 _ _
    | ⟨1, _⟩ => exact (affine_lhs_1 _ _).trans hk)
  have er : dot_S64x64_S64x8192_S64x8192_1_0_0_1_n_n.rhsIdx (ix2 p q) ((ValueIdx.contrEquiv1 dot_S64x64_S64x8192_S64x8192_1_0_0_1_n_n 64 rfl rfl).symm k) = ix2 k q := funext fun a => Fin.ext (by
    match a with
    | ⟨0, _⟩ => exact (affine_rhs_0 _ _).trans hk
    | ⟨1, _⟩ => exact affine_rhs_1 _ _)
  rw [el, er]

open Cert.KernelIdeal in
/-- A column of 64 entries spread along the 8192 samples of a block reads the column's row. -/
theorem affine_bcol_apply (x : Vec Ideal S64x1 .f32) (h : S64x1.Broadcasts S64x8192) (p : Fin 64) (q : Fin 8192) :
    broadcastTo S64x8192 x h (ix2 p q) = x (ix2 p 0) := by
  refine broadcastTo_apply x h (ix2 p q) (ix2 p 0) fun a => ?_
  match a with
  | ⟨0, _⟩ => show p.val = if (64 : Nat) = 1 then 0 else p.val; rw [if_neg (by decide)]
  | ⟨1, _⟩ => show 0 = if (1 : Nat) = 1 then 0 else q.val; rw [if_pos rfl]

open Cert.KernelIdeal in
/-- The body's stored value at (p, q): row p of the matrix against the centred column q of the block, plus the bias of row p. -/
theorem affine_pay_apply (x0 : Vec Ideal S64x8192 .f32) (x2 : Vec Ideal S64x1 .f32) (x6 : Vec Ideal S64x64 .f32) (x9 : Vec Ideal S64x1 .f32) (p : Fin 64) (q : Fin 8192) :
    Cert.KernelIdeal.Gen.k1_pay1 x0 x2 x6 x9 (ix2 p q)
      = ∑ k : Fin 64, ex TG x6 (ix2 p k) * (ex ⟨2, ![64, 8192]⟩ x0 (ix2 k q) - ex TC x2 (ix2 k 0)) + ex TC x9 (ix2 p 0) := by
  unfold Cert.KernelIdeal.Gen.k1_pay1
  simp only [shapeCast_self]
  rw [addf_apply, affine_bcol_apply]
  refine congrArg (· + x9 (ix2 p 0)) ?_
  refine (affine_matmul_apply x6 _ p q).trans ?_
  refine Finset.sum_congr rfl fun k _ => ?_
  rw [subf_apply, affine_bcol_apply]

variable (m : (ℓ : Loc Cert.KernelIdeal.nD Cert.KernelIdeal.τ Cert.KernelIdeal.sig) → Buf (Elt Ideal) ℓ) (ρ : Dev Cert.KernelIdeal.nD → PrngReg)

section Launch

open Cert.KernelIdeal Cert.KernelIdeal.Gen Idealize.ShloMosaic.TcCoe
open Idealize.ShloMosaic.Pipeline (Dat)

/-- The zero offset on both axes. -/
theorem affine_hz : (![0, 0] : Fin 2 → Nat) = fun _ => 0 := funext fun a => by fin_cases a <;> rfl

/-- The whole result array as one function of the four arrays the launch reads: the matrix A, the samples X, the mean column μ and the bias column β. -/
abbrev affineG (A : TG.Idx → EReal) (X : TX.Idx → EReal) (μ β : TC.Idx → EReal) : TX.Idx → EReal := fun i =>
  ∑ k : Fin 64, A (ix2 (i 0) k) * (X (ix2 k (i 1)) - μ (ix2 k 0)) + β (ix2 (i 0) 0)

/-- The body's stored value at a block index j is the whole-array function at i, once the blocks' entries on row (j 0) and column (j 1) are the arrays' entries on row (i 0) and column (i 1). -/
theorem affine_point_eq (A : TG.Idx → EReal) (X : TX.Idx → EReal) (μ β : TC.Idx → EReal)
    (x0 : Vec Ideal S64x8192 .f32) (x1 : Vec Ideal S64x64 .f32) (x2 x3 : Vec Ideal S64x1 .f32)
    (j : S64x8192.Idx) (i : TX.Idx)
    (h0 : ∀ k : Fin 64, x0 (ix2 k (j 1)) = X (ix2 k (i 1)))
    (h1 : ∀ k : Fin 64, x1 (ix2 (j 0) k) = A (ix2 (i 0) k))
    (h2 : ∀ k : Fin 64, x2 (ix2 k 0) = μ (ix2 k 0))
    (h3 : x3 (ix2 (j 0) 0) = β (ix2 (i 0) 0)) :
    k1_pay1 x0 x2 x1 x3 j = affineG A X μ β i := by
  obtain ⟨p, q, rfl⟩ : ∃ (p : Fin 64) (q : Fin 8192), j = ix2 p q := ⟨j 0, j 1, eq_ix2 j⟩
  have h0' : ∀ k : Fin 64, x0 (ix2 k q) = X (ix2 k (i 1)) := h0
  have h1' : ∀ k : Fin 64, x1 (ix2 p k) = A (ix2 (i 0) k) := h1
  have h3' : x3 (ix2 p 0) = β (ix2 (i 0) 0) := h3
  rw [affine_pay_apply]
  show ∑ k : Fin 64, x1 (ix2 p k) * (x0 (ix2 k q) - x2 (ix2 k 0)) + x3 (ix2 p 0)
    = ∑ k : Fin 64, A (ix2 (i 0) k) * (X (ix2 k (i 1)) - μ (ix2 k 0)) + β (ix2 (i 0) 0)
  rw [h3']
  refine congrArg (· + β (ix2 (i 0) 0)) ?_
  exact Finset.sum_congr rfl fun k _ => by rw [h0', h1', h2]

/-- The index maps over the grid: the sample blocks of the input and of the result move with the point along the columns; the matrix and the two columns stay at block (0, 0). -/
theorem affine_idx_facts : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val :=
  (by decide +kernel : ∀ t : Fin grid1.N, _)

variable (V : (c : Dev nD) → (b : Ref sig .tc) → Buf (Elt Ideal) ((c : Thread nD τ).loc b))

set_option maxHeartbeats 400000 in
/-- What point t writes back is block t of the whole-array function of the arrays as the launch finds them: a block's coordinate is its index times its size plus the coordinate inside it, and the input's block index is the result's. -/
theorem affine_flushed_eq (c : Dev nD) (t : Fin cfg1.N) :
    (dat1 V c).flushed 4 t = ((cfg1.win 4).blk t).view.read (Elt Ideal)
      (affineG (V c main_v112) (V c main_v2) (V c main_v5) (V c main_arg2)) := by
  show (cfg1.win 4).cut (grid1.coords t) ((dat1 V c).after 4 t) = _
  rw [after1_4]
  unfold out1_4
  rw [View.canon_unit_zero affine_hz]
  simp only [View.ld_unit_zero (S := S64x8192) affine_hz, View.ld_unit_zero (S := S64x64) affine_hz, View.ld_unit_zero (S := S64x1) affine_hz]
  obtain ⟨e00, e01, e10, e11, e20, e21, e30, e31, e40, e41⟩ := affine_idx_facts t
  funext j
  have hj0 : (j 0).val < 64 := (j 0).isLt
  have hj1 : (j 1).val < 8192 := (j 1).isLt
  have h0 : ∀ k : Fin 64, (iblk1 V c 0 t : Vec Ideal S64x8192 .f32) (ix2 k (j 1)) = (V c main_v2 : TX.Idx → EReal) (ix2 k ((((cfg1.win 4).blk t).view.emb j) 1)) := by
    intro k
    show V c main_v2 (((cfg1.win 0).blk t).view.emb (ix2 k (j 1))) = _
    refine congrArg (V c main_v2) (funext fun a => Fin.ext ?_)
    match a with
    | ⟨0, _⟩ => show win1_0.index t (0 : Fin 2) * 64 + 1 * k.val = k.val; omega
    | ⟨1, _⟩ => show win1_0.index t (1 : Fin 2) * 8192 + 1 * (j 1).val = win1_4.index t (1 : Fin 2) * 8192 + 1 * (j 1).val; omega
  have h1 : ∀ k : Fin 64, (iblk1 V c 1 t : Vec Ideal S64x64 .f32) (ix2 (j 0) k) = (V c main_v112 : TG.Idx → EReal) (ix2 ((((cfg1.win 4).blk t).view.emb j) 0) k) := by
    intro k
    show V c main_v112 (((cfg1.win 1).blk t).view.emb (ix2 (j 0) k)) = _
    refine congrArg (V c main_v112) (funext fun a => Fin.ext ?_)
    match a with
    | ⟨0, _⟩ => show win1_1.index t (0 : Fin 2) * 64 + 1 * (j 0).val = win1_4.index t (0 : Fin 2) * 64 + 1 * (j 0).val; omega
    | ⟨1, _⟩ => show win1_1.index t (1 : Fin 2) * 64 + 1 * k.val = k.val; omega
  have h2 : ∀ k : Fin 64, (iblk1 V c 2 t : Vec Ideal S64x1 .f32) (ix2 k 0) = (V c main_v5 : TC.Idx → EReal) (ix2 k 0) := by
    intro k
    show V c main_v5 (((cfg1.win 2).blk t).view.emb (ix2 k 0)) = _
    refine congrArg (V c main_v5) (funext fun a => Fin.ext ?_)
    match a with
    | ⟨0, _⟩ => show win1_2.index t (0 : Fin 2) * 64 + 1 * k.val = k.val; omega
    | ⟨1, _⟩ => show win1_2.index t (1 : Fin 2) * 1 + 1 * 0 = 0; omega
  have h3 : (iblk1 V c 3 t : Vec Ideal S64x1 .f32) (ix2 (j 0) 0) = (V c main_arg2 : TC.Idx → EReal) (ix2 ((((cfg1.win 4).blk t).view.emb j) 0) 0) := by
    show V c main_arg2 (((cfg1.win 3).blk t).view.emb (ix2 (j 0) 0)) = _
    refine congrArg (V c main_arg2) (funext fun a => Fin.ext ?_)
    match a with
    | ⟨0, _⟩ => show win1_3.index t (0 : Fin 2) * 64 + 1 * (j 0).val = win1_4.index t (0 : Fin 2) * 64 + 1 * (j 0).val; omega
    | ⟨1, _⟩ => show win1_3.index t (1 : Fin 2) * 1 + 1 * 0 = 0; omega
  exact affine_point_eq (V c main_v112) (V c main_v2) (V c main_v5) (V c main_arg2)
    (iblk1 V c 0 t) (iblk1 V c 1 t) (iblk1 V c 2 t) (iblk1 V c 3 t) j (((cfg1.win 4).blk t).view.emb j) h0 h1 h2 h3

/-- An index of the result array is in point t's block iff each coordinate is in the block's range on its axis. -/
theorem affine_mem_blk (t : Fin cfg1.N) (i : S64x802816.Idx) :
    i ∈ ((cfg1.win 4).blk t).view.set ↔ ∀ a : Fin 2, win1_4.index t a * S64x8192.size a ≤ (i a).val ∧ (i a).val < win1_4.index t a * S64x8192.size a + S64x8192.size a := by
  show i ∈ ((View.whole main_v113).slice (win1_4.rect t)).set ↔ _
  rw [View.set_slice_whole, Rect.mem_set_unit]
  exact Iff.rfl

/-- The 98 blocks of 8192 columns tile the array: column j lies in the block of point j / 8192. -/
theorem affine_cover (i : S64x802816.Idx) : ∃ t : Fin cfg1.N, (cfg1.win 4).flush t = true ∧ i ∈ ((cfg1.win 4).blk t).view.set := by
  have hi0 : (i 0).val < 64 := (i 0).isLt
  have hi1 : (i 1).val < 802816 := (i 1).isLt
  have hN : cfg1.N = 98 := N_1
  have hlt : (i 1).val / 8192 < cfg1.N := by rw [hN]; omega
  obtain ⟨-, -, -, -, -, -, -, -, e40, e41⟩ := affine_idx_facts ⟨(i 1).val / 8192, hlt⟩
  have e41' : win1_4.index ⟨(i 1).val / 8192, hlt⟩ (1 : Fin 2) = (i 1).val / 8192 := e41
  refine ⟨⟨(i 1).val / 8192, hlt⟩, flush1_4 _, ?_⟩
  rw [affine_mem_blk]
  intro a
  match a with
  | ⟨0, _⟩ => show win1_4.index ⟨(i 1).val / 8192, hlt⟩ (0 : Fin 2) * 64 ≤ (i 0).val ∧ (i 0).val < win1_4.index ⟨(i 1).val / 8192, hlt⟩ (0 : Fin 2) * 64 + 64; omega
  | ⟨1, _⟩ => show win1_4.index ⟨(i 1).val / 8192, hlt⟩ (1 : Fin 2) * 8192 ≤ (i 1).val ∧ (i 1).val < win1_4.index ⟨(i 1).val / 8192, hlt⟩ (1 : Fin 2) * 8192 + 8192; omega

/-- So the result array ends holding the whole-array function of the four arrays. -/
theorem affine_final (c : Dev nD) : (dat1 V c).arrAt 4 cfg1.N = affineG (V c main_v112) (V c main_v2) (V c main_v5) (V c main_arg2) :=
  (dat1 V c).arrAt_eq_of_cover 4 (affineG (V c main_v112) (V c main_v2) (V c main_v5) (V c main_arg2)) (fun t _ => affine_flushed_eq V c t) affine_cover

end Launch

/-- Entry (g, j) of the launch's result: the sum over k of the matrix at (g, k) times (the input at (k, j) minus the mean of row k), plus the bias of row g — all read from the buffers as the launch finds them. -/
theorem affineK (c : Dev Cert.KernelIdeal.nD) (i : TX.Idx) :
    ex TX (Cert.KernelIdeal.Gen.W6 m ρ c (Proc.devRef .tc Cert.KernelIdeal.main_v113)) i
      = ∑ k : Fin 64, ex TG (Cert.KernelIdeal.Gen.W5 m ρ c (Proc.devRef .tc Cert.KernelIdeal.main_v112)) (ix2 (i 0) k)
            * (ex TX (Cert.KernelIdeal.Gen.W5 m ρ c (Proc.devRef .tc Cert.KernelIdeal.main_v2)) (ix2 k (i 1))
                - ex TC (Cert.KernelIdeal.Gen.W5 m ρ c (Proc.devRef .tc Cert.KernelIdeal.main_v5)) (ix2 k 0))
          + ex TC (Cert.KernelIdeal.Gen.W5 m ρ c (Proc.devRef .tc Cert.KernelIdeal.main_arg2)) (ix2 (i 0) 0) := by
  have h : Cert.KernelIdeal.Gen.W6 m ρ c (Proc.devRef .tc Cert.KernelIdeal.main_v113)
      = affineG (Cert.KernelIdeal.Gen.V5 m ρ c Cert.KernelIdeal.main_v112) (Cert.KernelIdeal.Gen.V5 m ρ c Cert.KernelIdeal.main_v2)
          (Cert.KernelIdeal.Gen.V5 m ρ c Cert.KernelIdeal.main_v5) (Cert.KernelIdeal.Gen.V5 m ρ c Cert.KernelIdeal.main_arg2) :=
    (Cert.KernelIdeal.Gen.W6_arr m ρ c 4).trans (affine_final (Cert.KernelIdeal.Gen.V5 m ρ) c)
  exact congrFun h i

end Cert.Bridge

end
-- ==== Proof.LibERealCov.lean ====
/- The covariance of two finite families of real numbers, in its two spellings over the extended reals: the mean of the
   products minus the product of the means, and the mean of the products of the deviations. Both families must be real:
   at an infinity the two spellings differ. Also the float pattern of 802816 read as that real, and a sum over
   `n * k` indices taken block by block. -/
import proofs.«139421_j37855841747396_1_alg».proof.Proof.LibERealBatchNorm
import Mathlib.Algebra.BigOperators.Fin
import Mathlib.Logic.Equiv.Fin.Basic

noncomputable section

namespace Cert.ERealCov

open Idealize.ShloMosaic Cert.ERealBN
open scoped BigOperators

/-! The covariance law. -/

/-- The mean of a real-valued family, taken in the extended reals, is the real mean: division of a sum of
    real numbers by a nonzero real `N` is the real sum times `1 / N`. -/
theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of the products of the deviations of two real families from `p` and `q`, expanded:
    `∑ (fᵢ - p)(gᵢ - q) = ∑ fᵢ gᵢ - q ∑ fᵢ - p ∑ gᵢ + n p q` with `n` the number of indices. -/
theorem sum_dev_mul {ι : Type*} [Fintype ι] (f g : ι → ℝ) (p q : ℝ) :
    ∑ i, (f i - p) * (g i - q)
      = ∑ i, f i * g i - q * ∑ i, f i - p * ∑ i, g i + (Fintype.card ι : ℝ) * (p * q) := by
  have h : ∀ i, (f i - p) * (g i - q) = f i * g i - q * f i - p * g i + p * q := fun i => by ring
  simp_rw [h, Finset.sum_add_distrib, Finset.sum_sub_distrib, ← Finset.mul_sum, Finset.sum_const,
    Finset.card_univ, nsmul_eq_mul]
  ring

/-- The deviations' side of the covariance law, in the reals: for two real-valued families the mean of the
    products of the deviations from the means, all taken in the extended reals, is the same expression
    taken in the reals. -/
theorem dev_mul_coe {ι : Type*} [Fintype ι] (f g : ι → ℝ) {N : ℝ} (hN : N ≠ 0) :
    Ideal.div (∑ i, (((f i : ℝ) : EReal) - Ideal.div (∑ i, ((f i : ℝ) : EReal)) (N : EReal))
        * (((g i : ℝ) : EReal) - Ideal.div (∑ i, ((g i : ℝ) : EReal)) (N : EReal))) (N : EReal)
      = (((∑ i, (f i - (∑ i, f i) * (1 / N)) * (g i - (∑ i, g i) * (1 / N))) * (1 / N) : ℝ) : EReal) := by
  rw [div_sum_coe f hN, div_sum_coe g hN]
  simp_rw [← EReal.coe_sub, ← EReal.coe_mul]
  rw [div_sum_coe _ hN]

/-- The covariance law for two real-valued families of the same finite index type. -/
theorem cov_eq {ι : Type*} [Fintype ι] (a b : ι → EReal) (ha : ∀ i, IsReal (a i)) (hb : ∀ i, IsReal (b i))
    (N : ℝ) (hN : (Fintype.card ι : ℝ) = N) (hpos : 0 < N) :
    Ideal.div (∑ i, a i * b i) (N : EReal) - Ideal.div (∑ i, a i) (N : EReal) * Ideal.div (∑ i, b i) (N : EReal)
      = Ideal.div (∑ i, (a i - Ideal.div (∑ i, a i) (N : EReal)) * (b i - Ideal.div (∑ i, b i) (N : EReal))) (N : EReal) := by
  choose f hf using ha
  choose g hg using hb
  obtain rfl : a = fun i => ((f i : ℝ) : EReal) := funext hf
  obtain rfl : b = fun i => ((g i : ℝ) : EReal) := funext hg
  have hN0 : N ≠ 0 := hpos.ne'
  rw [dev_mul_coe f g hN0, div_sum_coe f hN0, div_sum_coe g hN0]
  simp_rw [← EReal.coe_mul]
  rw [div_sum_coe _ hN0, ← EReal.coe_sub, sum_dev_mul, hN]
  congr 1
  field_simp
  ring

/-- The float pattern `0x49440000` is the real number 802816 (= 49 · 2¹⁴). -/
theorem ofBits_802816 : Ideal.ofBits .f32 0x49440000#32 = ((802816 : ℝ) : EReal) := by
  simp [Ideal.ofBits, Ideal.ieee, -EReal.coe_mul]; norm_num

/-- A sum over `n * k` indices is the sum over `n` blocks of the sums over the `k` indices of each block. -/
theorem sum_blocks {M : Type*} [AddCommMonoid M] (n k : ℕ) (f : Fin (n * k) → M) :
    ∑ j, f j = ∑ t : Fin n, ∑ l : Fin k, f ⟨t.val * k + l.val, by
      have := t.isLt; have := l.isLt; nlinarith [Nat.mul_le_mul_right k (Nat.succ_le_of_lt t.isLt)]⟩ := by
  -- re-index the sum by pairs (block, offset): the pair `(t, l)` names the index `l + k * t = t * k + l`
  rw [← (finProdFinEquiv (m := n) (n := k)).sum_comp f, Fintype.sum_prod_type]
  refine Finset.sum_congr rfl fun t _ => Finset.sum_congr rfl fun l _ => ?_
  congr 1
  ext
  simp [finProdFinEquiv, Nat.mul_comm, Nat.add_comm]

end Cert.ERealCov

end
-- ==== Proof.Keep.lean ====
/- Buffers a stretch of host operations does not write keep their contents through it. -/
import proofs.«139421_j37855841747396_1_alg».proof.Proof.Names

noncomputable section

namespace Cert.Bridge

open Idealize.ShloMosaic Idealize.ShloMosaic.StableHlo Idealize.ShloMosaic.ValueIdx

variable {F : FTy → Type} [FloatOps F]

/-- No operation of the literal list writes the buffer: each operation's one result buffer is told apart from it. -/
macro "keep_buffer " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

section KernelSide
open Cert.KernelIdeal.Gen
theorem keepK_hostOps0_main_arg1 (V : KV F) :
    after Cert.KernelIdeal.Gen.hostOps0 V (Proc.devRef .tc Cert.KernelIdeal.main_arg1) = V (Proc.devRef .tc Cert.KernelIdeal.main_arg1) := by
  keep_buffer hostOps0

theorem keepK_hostOps0_main_arg2 (V : KV F) :
    after Cert.KernelIdeal.Gen.hostOps0 V (Proc.devRef .tc Cert.KernelIdeal.main_arg2) = V (Proc.devRef .tc Cert.KernelIdeal.main_arg2) := by
  keep_buffer hostOps0

theorem keepK_hostOps1_main_arg1 (V : KV F) :
    after Cert.KernelIdeal.Gen.hostOps1 V (Proc.devRef .tc Cert.KernelIdeal.main_arg1) = V (Proc.devRef .tc Cert.KernelIdeal.main_arg1) := by
  keep_buffer hostOps1

theorem keepK_hostOps1_main_arg2 (V : KV F) :
    after Cert.KernelIdeal.Gen.hostOps1 V (Proc.devRef .tc Cert.KernelIdeal.main_arg2) = V (Proc.devRef .tc Cert.KernelIdeal.main_arg2) := by
  keep_buffer hostOps1

theorem keepK_hostOps1_main_v2 (V : KV F) :
    after Cert.KernelIdeal.Gen.hostOps1 V (Proc.devRef .tc Cert.KernelIdeal.main_v2) = V (Proc.devRef .tc Cert.KernelIdeal.main_v2) := by
  keep_buffer hostOps1

theorem keepK_hostOps1_1_main_arg1 (V : KV F) :
    after Cert.KernelIdeal.Gen.hostOps1_1 V (Proc.devRef .tc Cert.KernelIdeal.main_arg1) = V (Proc.devRef .tc Cert.KernelIdeal.main_arg1) := by
  keep_buffer hostOps1_1

theorem keepK_hostOps1_1_main_arg2 (V : KV F) :
    after Cert.KernelIdeal.Gen.hostOps1_1 V (Proc.devRef .tc Cert.KernelIdeal.main_arg2) = V (Proc.devRef .tc Cert.KernelIdeal.main_arg2) := by
  keep_buffer hostOps1_1

theorem keepK_hostOps1_1_main_v2 (V : KV F) :
    after Cert.KernelIdeal.Gen.hostOps1_1 V (Proc.devRef .tc Cert.KernelIdeal.main_v2) = V (Proc.devRef .tc Cert.KernelIdeal.main_v2) := by
  keep_buffer hostOps1_1

theorem keepK_hostOps1_1_main_v5 (V : KV F) :
    after Cert.KernelIdeal.Gen.hostOps1_1 V (Proc.devRef .tc Cert.KernelIdeal.main_v5) = V (Proc.devRef .tc Cert.KernelIdeal.main_v5) := by
  keep_buffer hostOps1_1

theorem keepK_hostOps1_1_main_v19 (V : KV F) :
    after Cert.KernelIdeal.Gen.hostOps1_1 V (Proc.devRef .tc Cert.KernelIdeal.main_v19) = V (Proc.devRef .tc Cert.KernelIdeal.main_v19) := by
  keep_buffer hostOps1_1

theorem keepK_hostOps1_2_main_arg2 (V : KV F) :
    after Cert.KernelIdeal.Gen.hostOps1_2 V (Proc.devRef .tc Cert.KernelIdeal.main_arg2) = V (Proc.devRef .tc Cert.KernelIdeal.main_arg2) := by
  keep_buffer hostOps1_2

theorem keepK_hostOps1_2_main_v2 (V : KV F) :
    after Cert.KernelIdeal.Gen.hostOps1_2 V (Proc.devRef .tc Cert.KernelIdeal.main_v2) = V (Proc.devRef .tc Cert.KernelIdeal.main_v2) := by
  keep_buffer hostOps1_2

theorem keepK_hostOps1_2_main_v5 (V : KV F) :
    after Cert.KernelIdeal.Gen.hostOps1_2 V (Proc.devRef .tc Cert.KernelIdeal.main_v5) = V (Proc.devRef .tc Cert.KernelIdeal.main_v5) := by
  keep_buffer hostOps1_2

end KernelSide

section ReferenceSide
open Cert.ReferenceIdeal.RefOps
theorem keepR_r0_main_arg1 (V : RV F) :
    after Cert.ReferenceIdeal.RefOps.r0 V (Proc.devRef .tc Cert.ReferenceIdeal.main_arg1) = V (Proc.devRef .tc Cert.ReferenceIdeal.main_arg1) := by
  keep_buffer r0

theorem keepR_r0_main_arg2 (V : RV F) :
    after Cert.ReferenceIdeal.RefOps.r0 V (Proc.devRef .tc Cert.ReferenceIdeal.main_arg2) = V (Proc.devRef .tc Cert.ReferenceIdeal.main_arg2) := by
  keep_buffer r0

theorem keepR_r1_main_arg1 (V : RV F) :
    after Cert.ReferenceIdeal.RefOps.r1 V (Proc.devRef .tc Cert.ReferenceIdeal.main_arg1) = V (Proc.devRef .tc Cert.ReferenceIdeal.main_arg1) := by
  keep_buffer r1

theorem keepR_r1_main_arg2 (V : RV F) :
    after Cert.ReferenceIdeal.RefOps.r1 V (Proc.devRef .tc Cert.ReferenceIdeal.main_arg2) = V (Proc.devRef .tc Cert.ReferenceIdeal.main_arg2) := by
  keep_buffer r1

theorem keepR_r2_main_arg1 (V : RV F) :
    after Cert.ReferenceIdeal.RefOps.r2 V (Proc.devRef .tc Cert.ReferenceIdeal.main_arg1) = V (Proc.devRef .tc Cert.ReferenceIdeal.main_arg1) := by
  keep_buffer r2

theorem keepR_r2_main_arg2 (V : RV F) :
    after Cert.ReferenceIdeal.RefOps.r2 V (Proc.devRef .tc Cert.ReferenceIdeal.main_arg2) = V (Proc.devRef .tc Cert.ReferenceIdeal.main_arg2) := by
  keep_buffer r2

theorem keepR_r2_main_v21 (V : RV F) :
    after Cert.ReferenceIdeal.RefOps.r2 V (Proc.devRef .tc Cert.ReferenceIdeal.main_v21) = V (Proc.devRef .tc Cert.ReferenceIdeal.main_v21) := by
  keep_buffer r2

theorem keepR_r2_main_v8 (V : RV F) :
    after Cert.ReferenceIdeal.RefOps.r2 V (Proc.devRef .tc Cert.ReferenceIdeal.main_v8) = V (Proc.devRef .tc Cert.ReferenceIdeal.main_v8) := by
  keep_buffer r2

theorem keepR_r3_main_arg2 (V : RV F) :
    after Cert.ReferenceIdeal.RefOps.r3 V (Proc.devRef .tc Cert.ReferenceIdeal.main_arg2) = V (Proc.devRef .tc Cert.ReferenceIdeal.main_arg2) := by
  keep_buffer r3

theorem keepR_r3_main_v8 (V : RV F) :
    after Cert.ReferenceIdeal.RefOps.r3 V (Proc.devRef .tc Cert.ReferenceIdeal.main_v8) = V (Proc.devRef .tc Cert.ReferenceIdeal.main_v8) := by
  keep_buffer r3

end ReferenceSide

end Cert.Bridge

end
-- ==== Proof.Bridge.lean ====
/- The bridge between the two programs. Both re-lay the input to 64 rows of 802816 samples, both finish by the same
   Newton–Schulz chain, the same product with the weight and the same re-layout; they differ in how the mean and the
   covariance are formed (the kernel program accumulates row sums and Gram sums block by block and forms
   E[x xᵀ] − μ μᵀ; the reference centres the rows first and forms E[(x − μ)(x − μ)ᵀ]) and in how the last affine map is
   applied (block by block against all at once). Walking the two programs stretch by stretch, the buffers that
   correspond hold equal extended reals: the means because a sum over 802816 samples is the sum of 98 block sums, the
   covariances by the covariance law on real-valued rows (this is where the inputs' finiteness is used), everything
   after that because equal inputs go through the same operations, and the last product entry by entry. -/
import proofs.«139421_j37855841747396_1_alg».proof.Proof.Names
import proofs.«139421_j37855841747396_1_alg».proof.Proof.Layout
import proofs.«139421_j37855841747396_1_alg».proof.Proof.Norm
import proofs.«139421_j37855841747396_1_alg».proof.Proof.NS
import proofs.«139421_j37855841747396_1_alg».proof.Proof.Eps
import proofs.«139421_j37855841747396_1_alg».proof.Proof.StatsK
import proofs.«139421_j37855841747396_1_alg».proof.Proof.StatsR
import proofs.«139421_j37855841747396_1_alg».proof.Proof.AffineR
import proofs.«139421_j37855841747396_1_alg».proof.Proof.Region0
import proofs.«139421_j37855841747396_1_alg».proof.Proof.Region1
import proofs.«139421_j37855841747396_1_alg».proof.Proof.LibERealCov
import proofs.«139421_j37855841747396_1_alg».proof.Proof.Finite
import proofs.«139421_j37855841747396_1_alg».proof.Proof.Keep

noncomputable section

namespace Cert.Bridge

open Idealize.ShloMosaic Idealize.ShloMosaic.StableHlo Idealize.ShloMosaic.ValueIdx Idealize.SL.Sem
open Cert.ERealBN Cert.ERealCov
open Cert.KernelIdeal.Gen (W0 W1 W2 W3 W4 W5 W6 W7)
open Cert.ReferenceIdeal.RefOps (r0 r1 r2 r3 r4 r5)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## The reference's buffer contents after each of its six stretches -/

abbrev VR0 (c : Dev Cert.ReferenceIdeal.nD) : RV Ideal := launchContents m' c
abbrev VR1 (c : Dev Cert.ReferenceIdeal.nD) : RV Ideal := after r0 (VR0 m' c)
abbrev VR2 (c : Dev Cert.ReferenceIdeal.nD) : RV Ideal := after r1 (VR1 m' c)
abbrev VR3 (c : Dev Cert.ReferenceIdeal.nD) : RV Ideal := after r2 (VR2 m' c)
abbrev VR4 (c : Dev Cert.ReferenceIdeal.nD) : RV Ideal := after r3 (VR3 m' c)
abbrev VR5 (c : Dev Cert.ReferenceIdeal.nD) : RV Ideal := after r4 (VR4 m' c)
abbrev VR6 (c : Dev Cert.ReferenceIdeal.nD) : RV Ideal := after r5 (VR5 m' c)

/-- The fold of the whole operation list is the fold of its stretches, one after the other. -/
theorem fold_split (c : Dev Cert.ReferenceIdeal.nD) : after Cert.ReferenceIdeal.RefOps.ops (launchContents m' c) = VR6 m' c := by
  rw [Cert.ReferenceIdeal.RefOps.ops_eq]
  simp only [StableHlo.after_append]

/-- A column index of a 64 × 1 array is its row, at column 0. -/
theorem col_ix (i : TC.Idx) : i = ix2 (i 0) 0 := by
  rw [eq_ix2 i]
  congr 1
  apply Fin.ext
  show (i 1).val = 0
  have := idx2_lt1 i
  omega

/-- The sample count, as a real. -/
theorem Mc_eq : Mc = ((802816 : ℝ) : EReal) := ofBits_802816

variable (c : Dev Cert.KernelIdeal.nD)

/-- Both programs read the same 64 × 802816 array. -/
theorem x_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    W1 m ρ c (Proc.devRef .tc Cert.KernelIdeal.main_v2) = VR1 m' c (Proc.devRef .tc Cert.ReferenceIdeal.main_v2) :=
  pre_agree (W0 m ρ c) (VR0 m' c) h0.symm

/-- The mean columns agree: the accumulated row sums are the rows' sums. -/
theorem mean_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    W3 m ρ c (Proc.devRef .tc Cert.KernelIdeal.main_v5) = VR2 m' c (Proc.devRef .tc Cert.ReferenceIdeal.main_v6) := by
  funext i
  obtain ⟨g, rfl⟩ : ∃ g, i = ix2 g 0 := ⟨i 0, col_ix i⟩
  have hx := x_agree m ρ m' c h0
  refine (meanK (W2 m ρ c) (ix2 g 0)).trans (Eq.trans ?_ (meanR (VR1 m' c) (ix2 g 0)).symm)
  show Ideal.div (ex TC (W2 m ρ c (Proc.devRef .tc Cert.KernelIdeal.main_v3_0)) (ix2 g 0)) Mc
    = Ideal.div (Ideal.ofBits .f32 0x00000000#32 + ∑ j : Fin 802816, ex TX (VR1 m' c (Proc.devRef .tc Cert.ReferenceIdeal.main_v2)) (ix2 g j)) Mc
  rw [s1_value m ρ c g, ofBits_zero, zero_add, hx]

/-- The covariances agree, by the covariance law on real-valued rows. -/
theorem cov_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (hreal : ∀ i : TX.Idx, IsReal (ex TX (W1 m ρ c (Proc.devRef .tc Cert.KernelIdeal.main_v2)) i)) :
    W3 m ρ c (Proc.devRef .tc Cert.KernelIdeal.main_v19) = VR2 m' c (Proc.devRef .tc Cert.ReferenceIdeal.main_v21) := by
  funext i
  obtain ⟨g, g', rfl⟩ : ∃ g g', i = ix2 g g' := ⟨i 0, i 1, eq_ix2 i⟩
  have hx := x_agree m ρ m' c h0
  refine (covK (W2 m ρ c) (ix2 g g')).trans (Eq.trans ?_ (covR (VR1 m' c) (ix2 g g')).symm)
  have he : ex TG (after Cert.KernelIdeal.Gen.hostOps1 (W2 m ρ c) (Proc.devRef .tc Cert.KernelIdeal.main_v18)) (ix2 g g')
      = ex TG (after r1 (VR1 m' c) (Proc.devRef .tc Cert.ReferenceIdeal.main_v20)) (ix2 g g') :=
    congrFun (eps_agree (W2 m ρ c) (VR1 m' c)) (ix2 g g')
  rw [he]
  congr 1
  -- the two spellings of the covariance of rows g and g'
  have hc : ∀ (a : Fin 64) (j : Fin 802816), ex TX (after r1 (VR1 m' c) (Proc.devRef .tc Cert.ReferenceIdeal.main_v8)) (ix2 a j)
      = ex TX (W1 m ρ c (Proc.devRef .tc Cert.KernelIdeal.main_v2)) (ix2 a j)
        - Ideal.div (∑ j : Fin 802816, ex TX (W1 m ρ c (Proc.devRef .tc Cert.KernelIdeal.main_v2)) (ix2 a j)) Mc := by
    intro a j
    refine (centredR (VR1 m' c) (ix2 a j)).trans ?_
    show ex TX (VR1 m' c (Proc.devRef .tc Cert.ReferenceIdeal.main_v2)) (ix2 a j) - ex TC (after r1 (VR1 m' c) (Proc.devRef .tc Cert.ReferenceIdeal.main_v6)) (ix2 a 0) = _
    rw [meanR (VR1 m' c) (ix2 a 0)]
    show ex TX (VR1 m' c (Proc.devRef .tc Cert.ReferenceIdeal.main_v2)) (ix2 a j)
      - Ideal.div (Ideal.ofBits .f32 0x00000000#32 + ∑ j : Fin 802816, ex TX (VR1 m' c (Proc.devRef .tc Cert.ReferenceIdeal.main_v2)) (ix2 a j)) Mc = _
    rw [ofBits_zero, zero_add, ← hx]
  show Ideal.div (ex TG (W2 m ρ c (Proc.devRef .tc Cert.KernelIdeal.main_v3_1)) (ix2 g g')) Mc
      - Ideal.div (ex TC (W2 m ρ c (Proc.devRef .tc Cert.KernelIdeal.main_v3_0)) (ix2 g 0)) Mc * Ideal.div (ex TC (W2 m ρ c (Proc.devRef .tc Cert.KernelIdeal.main_v3_0)) (ix2 g' 0)) Mc
    = Ideal.div (∑ j : Fin 802816, ex TX (after r1 (VR1 m' c) (Proc.devRef .tc Cert.ReferenceIdeal.main_v8)) (ix2 g j)
        * ex TX (after r1 (VR1 m' c) (Proc.devRef .tc Cert.ReferenceIdeal.main_v8)) (ix2 g' j)) Mc
  rw [s2_value m ρ c g g', s1_value m ρ c g, s1_value m ρ c g']
  simp only [hc]
  rw [Mc_eq]
  exact cov_eq (fun j => ex TX (W1 m ρ c (Proc.devRef .tc Cert.KernelIdeal.main_v2)) (ix2 g j)) (fun j => ex TX (W1 m ρ c (Proc.devRef .tc Cert.KernelIdeal.main_v2)) (ix2 g' j))
    (fun j => hreal _) (fun j => hreal _) 802816 (by simp) (by norm_num)

/-- The Frobenius norms agree. -/
theorem norm_agree' (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (hreal : ∀ i : TX.Idx, IsReal (ex TX (W1 m ρ c (Proc.devRef .tc Cert.KernelIdeal.main_v2)) i)) :
    W4 m ρ c (Proc.devRef .tc Cert.KernelIdeal.main_v20) = VR3 m' c (Proc.devRef .tc Cert.ReferenceIdeal.main_v22) :=
  norm_agree (W3 m ρ c) (VR2 m' c) (cov_agree m ρ m' c h0 hreal)

/-- The weight times the inverse square root agrees. -/
theorem a_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (hreal : ∀ i : TX.Idx, IsReal (ex TX (W1 m ρ c (Proc.devRef .tc Cert.KernelIdeal.main_v2)) i)) :
    W5 m ρ c (Proc.devRef .tc Cert.KernelIdeal.main_v112) = VR4 m' c (Proc.devRef .tc Cert.ReferenceIdeal.main_v114) := by
  refine ns_agree (W4 m ρ c) (VR3 m' c) ?_ (norm_agree' m ρ m' c h0 hreal) ?_
  · rw [show W4 m ρ c (Proc.devRef .tc Cert.KernelIdeal.main_v19) = W3 m ρ c (Proc.devRef .tc Cert.KernelIdeal.main_v19) from keepK_hostOps1_1_main_v19 (W3 m ρ c),
      show VR3 m' c (Proc.devRef .tc Cert.ReferenceIdeal.main_v21) = VR2 m' c (Proc.devRef .tc Cert.ReferenceIdeal.main_v21) from keepR_r2_main_v21 (VR2 m' c)]
    exact cov_agree m ρ m' c h0 hreal
  · rw [show W4 m ρ c (Proc.devRef .tc Cert.KernelIdeal.main_arg1) = W3 m ρ c (Proc.devRef .tc Cert.KernelIdeal.main_arg1) from keepK_hostOps1_1_main_arg1 (W3 m ρ c),
      show W3 m ρ c (Proc.devRef .tc Cert.KernelIdeal.main_arg1) = W2 m ρ c (Proc.devRef .tc Cert.KernelIdeal.main_arg1) from keepK_hostOps1_main_arg1 (W2 m ρ c),
      show W2 m ρ c (Proc.devRef .tc Cert.KernelIdeal.main_arg1) = W1 m ρ c (Proc.devRef .tc Cert.KernelIdeal.main_arg1) from Cert.KernelIdeal.Gen.W2_of_ne m ρ c Cert.KernelIdeal.main_arg1 (by decide),
      show W1 m ρ c (Proc.devRef .tc Cert.KernelIdeal.main_arg1) = W0 m ρ c (Proc.devRef .tc Cert.KernelIdeal.main_arg1) from keepK_hostOps0_main_arg1 (W0 m ρ c),
      show VR3 m' c (Proc.devRef .tc Cert.ReferenceIdeal.main_arg1) = VR2 m' c (Proc.devRef .tc Cert.ReferenceIdeal.main_arg1) from keepR_r2_main_arg1 (VR2 m' c),
      show VR2 m' c (Proc.devRef .tc Cert.ReferenceIdeal.main_arg1) = VR1 m' c (Proc.devRef .tc Cert.ReferenceIdeal.main_arg1) from keepR_r1_main_arg1 (VR1 m' c),
      show VR1 m' c (Proc.devRef .tc Cert.ReferenceIdeal.main_arg1) = VR0 m' c (Proc.devRef .tc Cert.ReferenceIdeal.main_arg1) from keepR_r0_main_arg1 (VR0 m' c)]
    exact h1.symm

/-- The second launch still finds the re-laid input where the first launch left it. -/
theorem v2_kept : W5 m ρ c (Proc.devRef .tc Cert.KernelIdeal.main_v2) = W1 m ρ c (Proc.devRef .tc Cert.KernelIdeal.main_v2) := by
  rw [show W5 m ρ c (Proc.devRef .tc Cert.KernelIdeal.main_v2) = W4 m ρ c (Proc.devRef .tc Cert.KernelIdeal.main_v2) from keepK_hostOps1_2_main_v2 (W4 m ρ c),
    show W4 m ρ c (Proc.devRef .tc Cert.KernelIdeal.main_v2) = W3 m ρ c (Proc.devRef .tc Cert.KernelIdeal.main_v2) from keepK_hostOps1_1_main_v2 (W3 m ρ c),
    show W3 m ρ c (Proc.devRef .tc Cert.KernelIdeal.main_v2) = W2 m ρ c (Proc.devRef .tc Cert.KernelIdeal.main_v2) from keepK_hostOps1_main_v2 (W2 m ρ c)]
  exact x1_kept m ρ c

/-- … and the mean column where the host left it. -/
theorem v5_kept : W5 m ρ c (Proc.devRef .tc Cert.KernelIdeal.main_v5) = W3 m ρ c (Proc.devRef .tc Cert.KernelIdeal.main_v5) := by
  rw [show W5 m ρ c (Proc.devRef .tc Cert.KernelIdeal.main_v5) = W4 m ρ c (Proc.devRef .tc Cert.KernelIdeal.main_v5) from keepK_hostOps1_2_main_v5 (W4 m ρ c),
    show W4 m ρ c (Proc.devRef .tc Cert.KernelIdeal.main_v5) = W3 m ρ c (Proc.devRef .tc Cert.KernelIdeal.main_v5) from keepK_hostOps1_1_main_v5 (W3 m ρ c)]

/-- … and the bias as launched. -/
theorem bias_kept : W5 m ρ c (Proc.devRef .tc Cert.KernelIdeal.main_arg2) = W0 m ρ c (Proc.devRef .tc Cert.KernelIdeal.main_arg2) := by
  rw [show W5 m ρ c (Proc.devRef .tc Cert.KernelIdeal.main_arg2) = W4 m ρ c (Proc.devRef .tc Cert.KernelIdeal.main_arg2) from keepK_hostOps1_2_main_arg2 (W4 m ρ c),
    show W4 m ρ c (Proc.devRef .tc Cert.KernelIdeal.main_arg2) = W3 m ρ c (Proc.devRef .tc Cert.KernelIdeal.main_arg2) from keepK_hostOps1_1_main_arg2 (W3 m ρ c),
    show W3 m ρ c (Proc.devRef .tc Cert.KernelIdeal.main_arg2) = W2 m ρ c (Proc.devRef .tc Cert.KernelIdeal.main_arg2) from keepK_hostOps1_main_arg2 (W2 m ρ c),
    show W2 m ρ c (Proc.devRef .tc Cert.KernelIdeal.main_arg2) = W1 m ρ c (Proc.devRef .tc Cert.KernelIdeal.main_arg2) from Cert.KernelIdeal.Gen.W2_of_ne m ρ c Cert.KernelIdeal.main_arg2 (by decide),
    show W1 m ρ c (Proc.devRef .tc Cert.KernelIdeal.main_arg2) = W0 m ρ c (Proc.devRef .tc Cert.KernelIdeal.main_arg2) from keepK_hostOps0_main_arg2 (W0 m ρ c)]

/-- The reference's bias as launched, at its last product. -/
theorem bias_kept' : VR4 m' c (Proc.devRef .tc Cert.ReferenceIdeal.main_arg2) = VR0 m' c (Proc.devRef .tc Cert.ReferenceIdeal.main_arg2) := by
  rw [show VR4 m' c (Proc.devRef .tc Cert.ReferenceIdeal.main_arg2) = VR3 m' c (Proc.devRef .tc Cert.ReferenceIdeal.main_arg2) from keepR_r3_main_arg2 (VR3 m' c),
    show VR3 m' c (Proc.devRef .tc Cert.ReferenceIdeal.main_arg2) = VR2 m' c (Proc.devRef .tc Cert.ReferenceIdeal.main_arg2) from keepR_r2_main_arg2 (VR2 m' c),
    show VR2 m' c (Proc.devRef .tc Cert.ReferenceIdeal.main_arg2) = VR1 m' c (Proc.devRef .tc Cert.ReferenceIdeal.main_arg2) from keepR_r1_main_arg2 (VR1 m' c),
    show VR1 m' c (Proc.devRef .tc Cert.ReferenceIdeal.main_arg2) = VR0 m' c (Proc.devRef .tc Cert.ReferenceIdeal.main_arg2) from keepR_r0_main_arg2 (VR0 m' c)]

/-- The reference's centred rows, still there at its last product. -/
theorem v8_kept' : VR4 m' c (Proc.devRef .tc Cert.ReferenceIdeal.main_v8) = VR2 m' c (Proc.devRef .tc Cert.ReferenceIdeal.main_v8) := by
  rw [show VR4 m' c (Proc.devRef .tc Cert.ReferenceIdeal.main_v8) = VR3 m' c (Proc.devRef .tc Cert.ReferenceIdeal.main_v8) from keepR_r3_main_v8 (VR3 m' c),
    show VR3 m' c (Proc.devRef .tc Cert.ReferenceIdeal.main_v8) = VR2 m' c (Proc.devRef .tc Cert.ReferenceIdeal.main_v8) from keepR_r2_main_v8 (VR2 m' c)]

/-- The affine maps agree entry by entry: the same matrix, the same centred column, the same bias. -/
theorem out_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (hreal : ∀ i : TX.Idx, IsReal (ex TX (W1 m ρ c (Proc.devRef .tc Cert.KernelIdeal.main_v2)) i)) :
    W6 m ρ c (Proc.devRef .tc Cert.KernelIdeal.main_v113) = VR5 m' c (Proc.devRef .tc Cert.ReferenceIdeal.main_v117) := by
  funext i
  obtain ⟨g, j, rfl⟩ : ∃ g j, i = ix2 g j := ⟨i 0, i 1, eq_ix2 i⟩
  refine (affineK m ρ c (ix2 g j)).trans (Eq.trans ?_ (affineR (VR4 m' c) (ix2 g j)).symm)
  show ∑ k : Fin 64, ex TG (W5 m ρ c (Proc.devRef .tc Cert.KernelIdeal.main_v112)) (ix2 g k)
        * (ex TX (W5 m ρ c (Proc.devRef .tc Cert.KernelIdeal.main_v2)) (ix2 k j) - ex TC (W5 m ρ c (Proc.devRef .tc Cert.KernelIdeal.main_v5)) (ix2 k 0))
      + ex TC (W5 m ρ c (Proc.devRef .tc Cert.KernelIdeal.main_arg2)) (ix2 g 0)
    = ∑ k : Fin 64, ex TG (VR4 m' c (Proc.devRef .tc Cert.ReferenceIdeal.main_v114)) (ix2 g k) * ex TX (VR4 m' c (Proc.devRef .tc Cert.ReferenceIdeal.main_v8)) (ix2 k j)
      + ex TC (VR4 m' c (Proc.devRef .tc Cert.ReferenceIdeal.main_arg2)) (ix2 g 0)
  have hx := x_agree m ρ m' c h0
  have hv8 : ∀ k : Fin 64, ex TX (VR4 m' c (Proc.devRef .tc Cert.ReferenceIdeal.main_v8)) (ix2 k j)
      = ex TX (W1 m ρ c (Proc.devRef .tc Cert.KernelIdeal.main_v2)) (ix2 k j) - ex TC (W3 m ρ c (Proc.devRef .tc Cert.KernelIdeal.main_v5)) (ix2 k 0) := by
    intro k
    rw [v8_kept' m' c]
    refine (centredR (VR1 m' c) (ix2 k j)).trans ?_
    show ex TX (VR1 m' c (Proc.devRef .tc Cert.ReferenceIdeal.main_v2)) (ix2 k j) - ex TC (VR2 m' c (Proc.devRef .tc Cert.ReferenceIdeal.main_v6)) (ix2 k 0) = _
    rw [← hx, ← mean_agree m ρ m' c h0]
  rw [a_agree m ρ m' c h0 h1 hreal, v2_kept m ρ c, v5_kept m ρ c, bias_kept m ρ c, bias_kept' m' c]
  simp only [hv8]
  congr 1
  exact congrFun h2.symm (ix2 g 0)

/-- THE AGREEMENT: what the kernel program leaves in its result buffer is what the reference's operations leave in
    theirs. -/
theorem result_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (hreal : ∀ i : TX.Idx, IsReal (ex TX (W1 m ρ c (Proc.devRef .tc Cert.KernelIdeal.main_v2)) i)) :
    after Cert.ReferenceIdeal.RefOps.ops (launchContents m' c) (Proc.devRef .tc Cert.ReferenceIdeal.main_v120) = W7 m ρ c (Proc.devRef .tc Cert.KernelIdeal.main_v116) := by
  rw [fold_split m' c]
  exact (post_agree (W6 m ρ c) (VR5 m' c) (out_agree m ρ m' c h0 h1 h2 hreal)).symm

end Cert.Bridge

end
-- ==== Proof.lean ====
/- The whitening kernel against its reference, over the extended reals.

   Both programs re-lay the input x (64 × 256 × 56 × 56) to X : 64 feature rows of M = 802816 samples, whiten X and re-lay
   the result back. The reference forms the mean μ = (Σ X)/M of each row, the centred rows X − μ, the covariance
   (X − μ)(X − μ)ᵀ/M + ε·I, its inverse square root by ten Newton–Schulz steps, and W·isqrt·(X − μ) + b. The kernel program
   accumulates the row sums Σ X and the Gram sums X Xᵀ over 98 blocks of 8192 samples in a first launch, forms
   μ = (Σ X)/M and the covariance X Xᵀ/M − μ μᵀ + ε·I on the host, runs the same Newton–Schulz chain, and applies
   A·(X − μ) + b block by block in a second launch.

   Over the extended reals the two agree when every input entry is a real number: the block sums add up to the whole
   sums (addition there is commutative and associative), E[x xᵀ] − μ μᵀ = E[(x − μ)(x − μ)ᵀ] is the covariance law
   (distributivity: this is where finiteness is needed), the Newton–Schulz chain and both re-layouts are the same
   operations applied to equal contents and are never opened, and the last product agrees entry by entry.
   The ideal pass rewrote nothing, so `preserves` is `True`. -/
import proofs.«139421_j37855841747396_1_alg».proof.Defs
import proofs.«139421_j37855841747396_1_alg».proof.Proof.Gen.Kernel
import proofs.«139421_j37855841747396_1_alg».proof.Proof.Gen.Kernel.Skeleton
import proofs.«139421_j37855841747396_1_alg».proof.Proof.Gen.Kernel.Launch
import proofs.«139421_j37855841747396_1_alg».proof.Proof.Gen.Kernel.Points
import proofs.«139421_j37855841747396_1_alg».proof.Proof.Gen.Kernel.Frame
import proofs.«139421_j37855841747396_1_alg».proof.Proof.Gen.KernelIdeal
import proofs.«139421_j37855841747396_1_alg».proof.Proof.Gen.KernelIdeal.Skeleton
import proofs.«139421_j37855841747396_1_alg».proof.Proof.Gen.KernelIdeal.Launch
import proofs.«139421_j37855841747396_1_alg».proof.Proof.Gen.KernelIdeal.Points
import proofs.«139421_j37855841747396_1_alg».proof.Proof.Gen.KernelIdeal.Frame
import proofs.«139421_j37855841747396_1_alg».proof.Proof.Gen.ReferenceIdeal
import proofs.«139421_j37855841747396_1_alg».proof.Proof.Gen.Pre_finite_inputs
import proofs.«139421_j37855841747396_1_alg».proof.Proof.KRun
import proofs.«139421_j37855841747396_1_alg».proof.Proof.RefOps
import proofs.«139421_j37855841747396_1_alg».proof.Proof.Finite
import proofs.«139421_j37855841747396_1_alg».proof.Proof.Bridge
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2) (Cert.ReferenceIdeal.RefOps.run_fold (F := Ideal) m ρ)

/-- Over the extended reals, from memories that agree on the three arguments, both programs end with the same
    result: the kernel program's result buffer holds the fold of its host stretches and its two launches' write-backs,
    the reference's the fold of its 150 operations, and the two folds agree when every input entry is a real number
    (the covariance law needs that). -/
theorem algebraic : Cert.algebraic_KernelIdeal_ReferenceIdeal := by
  intro m ρ m' ρ' hpre hagree
  refine ⟨fun c => Cert.KernelIdeal.Gen.W7 m ρ c (Proc.devRef .tc Cert.KernelIdeal.main_v116),
    Cert.KernelIdeal.Gen.run_value m ρ, ?_⟩
  refine (θ_run Cert.ReferenceIdeal.defs _ _).mono (fun r h c => ?_) (Cert.ReferenceIdeal.RefOps.run_fold (F := Ideal) m' ρ')
  obtain ⟨hv, ha⟩ := h c
  obtain ⟨g0, g1, g2⟩ := hagree c
  exact ⟨hv.trans (Cert.Bridge.result_agree m ρ m' c g0 g1 g2 (fun i => Cert.Bridge.x1_real m ρ hpre c i)), ha⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
